-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x256 : Shape := ⟨4, ![8, 256, 128, 256]⟩
abbrev S8x128x256 : Shape := ⟨3, ![8, 128, 256]⟩
abbrev S_ : Shape := ⟨0, ![]⟩

class Facts : Prop where
  bcast_S_S8x256x128x256 : S_.BroadcastsInDim S8x256x128x256 (![] : Fin 0 → Fin S8x256x128x256.rank)
  reducesTo_S8x256x128x256_S_d0_1_2_3 : S8x256x128x256.ReducesTo [0, 1, 2, 3] S_
  h_S_ : 0 < S_.numel

variable [Facts]

def fn {F : FTy → Type} [FloatOps F] (main_arg0 : FVec F S8x256x128x256 .f32) (main_arg1 : IVec S8x128x256 32) : IVec S_ 1 :=
  let main_v0 : FVec F S8x256x128x256 .f32 := Host.absf main_arg0
  let main_cst : FVec F S_ .f32 := constant S_ .f32 0x7F800000#32
  let main_v1 : FVec F S8x256x128x256 .f32 := broadcastInDim S8x256x128x256 ![] bcast_S_S8x256x128x256 main_cst
  let main_v2 : IVec S8x256x128x256 1 := cmpf .olt main_v0 main_v1
  let main_c : IVec S_ 1 := constantI S_ 1 1#1
  let main_v3 : IVec S_ 1 := (fun x v => Host.reduce IntOp.andi x v reducesTo_S8x256x128x256_S_d0_1_2_3 h_S_) main_v2 main_c
  main_v3
-- ==== Kernel.lean ====
abbrev S8x256x128x256 : Shape := ⟨4, ![8, 256, 128, 256]⟩
abbrev S8x128x256 : Shape := ⟨3, ![8, 128, 256]⟩
abbrev S8x256x32768 : Shape := ⟨3, ![8, 256, 32768]⟩
abbrev S8x1x32768 : Shape := ⟨3, ![8, 1, 32768]⟩
abbrev S8x256x128 : Shape := ⟨3, ![8, 256, 128]⟩
abbrev S8x8x128 : Shape := ⟨3, ![8, 8, 128]⟩
abbrev S1x256x8192 : Shape := ⟨3, ![1, 256, 8192]⟩
abbrev S1x1x8192 : Shape := ⟨3, ![1, 1, 8192]⟩
abbrev S1x256x128 : Shape := ⟨3, ![1, 256, 128]⟩
abbrev S1x8x128 : Shape := ⟨3, ![1, 8, 128]⟩
abbrev S256x128 : Shape := ⟨2, ![256, 128]⟩
abbrev S8x128 : Shape := ⟨2, ![8, 128]⟩
abbrev S256x8192 : Shape := ⟨2, ![256, 8192]⟩
abbrev S8192 : Shape := ⟨1, ![8192]⟩
abbrev S1x128 : Shape := ⟨2, ![1, 128]⟩
abbrev S8192x1 : Shape := ⟨2, ![8192, 1]⟩
abbrev S8192x128 : Shape := ⟨2, ![8192, 128]⟩
abbrev S1x8192 : Shape := ⟨2, ![1, 8192]⟩
abbrev S6x8192 : Shape := ⟨2, ![6, 8192]⟩
abbrev S8x8192 : Shape := ⟨2, ![8, 8192]⟩
abbrev S264x8192 : Shape := ⟨2, ![264, 8192]⟩
abbrev S264x128 : Shape := ⟨2, ![264, 128]⟩
abbrev S_ : Shape := ⟨0, ![]⟩
abbrev S256x19 : Shape := ⟨2, ![256, 19]⟩
abbrev S19x256 : Shape := ⟨2, ![19, 256]⟩
abbrev S1x19 : Shape := ⟨2, ![1, 19]⟩
abbrev S19 : Shape := ⟨1, ![19]⟩
abbrev S19x1 : Shape := ⟨2, ![19, 1]⟩

abbrev nBuf : Space → Nat
  | .hbm => 36
  | .vmem => 10
  | .smem => 0
  | _ => 0

abbrev bufTy : (tb : Table) → Fin (tcTables nBuf tb) → BufTy
  | .hbm, ⟨0, _⟩ => ⟨S8x256x128x256, .f32⟩
  | .hbm, ⟨1, _⟩ => ⟨S8x128x256, .i32⟩
  | .hbm, ⟨2, _⟩ => ⟨S8x256x32768, .f32⟩
  | .hbm, ⟨3, _⟩ => ⟨S8x1x32768, .i32⟩
  | .hbm, ⟨4, _⟩ => ⟨S8x256x128, .f32⟩
  | .hbm, ⟨5, _⟩ => ⟨S8x8x128, .f32⟩
  | .hbm, ⟨6, _⟩ => ⟨S_, .f32⟩
  | .hbm, ⟨7, _⟩ => ⟨S256x128, .f32⟩
  | .hbm, ⟨8, _⟩ => ⟨S_, .f32⟩
  | .hbm, ⟨9, _⟩ => ⟨S8x128, .f32⟩
  | .hbm, ⟨10, _⟩ => ⟨S256x19, .f32⟩
  | .hbm, ⟨11, _⟩ => ⟨S19x256, .f32⟩
  | .hbm, ⟨12, _⟩ => ⟨S1x19, .f32⟩
  | .hbm, ⟨13, _⟩ => ⟨S19, .f32⟩
  | .hbm, ⟨14, _⟩ => ⟨S1x19, .f32⟩
  | .hbm, ⟨15, _⟩ => ⟨S19, .f32⟩
  | .hbm, ⟨16, _⟩ => ⟨S_, .f32⟩
  | .hbm, ⟨17, _⟩ => ⟨S19, .f32⟩
  | .hbm, ⟨18, _⟩ => ⟨S19, .f32⟩
  | .hbm, ⟨19, _⟩ => ⟨S_, .f32⟩
  | .hbm, ⟨20, _⟩ => ⟨S19, .f32⟩
  | .hbm, ⟨21, _⟩ => ⟨S19, .i1⟩
  | .hbm, ⟨22, _⟩ => ⟨S19x1, .i1⟩
  | .hbm, ⟨23, _⟩ => ⟨S19x1, .f32⟩
  | .hbm, ⟨24, _⟩ => ⟨S19x256, .f32⟩
  | .hbm, ⟨25, _⟩ => ⟨S19x256, .f32⟩
  | .hbm, ⟨26, _⟩ => ⟨S_, .f32⟩
  | .hbm, ⟨27, _⟩ => ⟨S_, .f32⟩
  | .hbm, ⟨28, _⟩ => ⟨S19x256, .i1⟩
  | .hbm, ⟨29, _⟩ => ⟨S19x256, .f32⟩
  | .hbm, ⟨30, _⟩ => ⟨S19x256, .f32⟩
  | .hbm, ⟨31, _⟩ => ⟨S19, .f32⟩
  | .hbm, ⟨32, _⟩ => ⟨S_, .f32⟩
  | .hbm, ⟨33, _⟩ => ⟨S_, .f32⟩
  | .hbm, ⟨34, _⟩ => ⟨S19, .f32⟩
  | .hbm, ⟨35, _⟩ => ⟨S19, .f32⟩
  | .local _ .vmem, ⟨0, _⟩ => ⟨S1x256x8192, .f32⟩
  | .local _ .vmem, ⟨1, _⟩ => ⟨S1x256x8192, .f32⟩
  | .local _ .vmem, ⟨2, _⟩ => ⟨S1x1x8192, .i32⟩
  | .local _ .vmem, ⟨3, _⟩ => ⟨S1x1x8192, .i32⟩
  | .local _ .vmem, ⟨4, _⟩ => ⟨S1x256x128, .f32⟩
  | .local _ .vmem, ⟨5, _⟩ => ⟨S1x256x128, .f32⟩
  | .local _ .vmem, ⟨6, _⟩ => ⟨S1x8x128, .f32⟩
  | .local _ .vmem, ⟨7, _⟩ => ⟨S1x8x128, .f32⟩
  | .local _ .vmem, ⟨8, _⟩ => ⟨S256x128, .f32⟩
  | .local _ .vmem, ⟨9, _⟩ => ⟨S8x128, .f32⟩
  | _, _ => ⟨S8x256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_18 : BitVec 32 := 0#32
  let v45 : BitVec 1 := Scalar.cmpi .ne v44 c0_i32_18
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x256x128x256_S8x256x32768 : S8x256x128x256.ShapeCasts S8x256x32768
  shapeCasts_S8x128x256_S8x1x32768 : S8x128x256.ShapeCasts S8x1x32768
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  iota_S1x128_d1_w32 : S1x128.Iotas .tc 32 [1]
  shapeCasts_S8192_S8192x1 : S8192.ShapeCasts S8192x1
  broadcasts_S8192x1_S8192x128 : S8192x1.Broadcasts S8192x128
  broadcasts_S1x128_S8192x128 : S1x128.Broadcasts S8192x128
  natLt_1_32 : 1 < 32
  bitsLt_bf16_f32 : FTy.bits .bf16 < FTy.bits .f32
  reduces_S256x8192_S8192 : S256x8192.Reduces [0] S8192
  shapeCasts_S8192_S1x8192 : S8192.ShapeCasts S1x8192
  concatenates_S1x8192_S1x8192_S6x8192_S8x8192_d0 : Shape.Concatenates [S1x8192, S1x8192, S6x8192] S8x8192 0
  concatenates_S256x8192_S8x8192_S264x8192_d0 : Shape.Concatenates [S256x8192, S8x8192] S264x8192 0
  slices_S264x128_o0_0_S256x128 : S264x128.Slices ![0, 0] S256x128
  slices_S264x128_o256_0_S8x128 : S264x128.Slices ![256, 0] S8x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S8x256x128_S256x128_d0 : S8x256x128.ReducesTo [0] S256x128
  h_S_ : 0 < S_.numel
  reducesTo_S8x8x128_S8x128_d0 : S8x8x128.ReducesTo [0] S8x128
  slices_S256x128_S256x19_0_0 : S256x128.Slices ![0, 0] S256x19
  transposes_S256x19_S19x256_1_0 : S256x19.Transposes [1, 0] S19x256
  slices_S8x128_S1x19_0_0 : S8x128.Slices ![0, 0] S1x19
  shapeCasts_S1x19_S19 : S1x19.ShapeCasts S19
  slices_S8x128_S1x19_1_0 : S8x128.Slices ![1, 0] S1x19
  bcast_S_S19 : S_.BroadcastsInDim S19 (![] : Fin 0 → Fin S19.rank)
  bcast_S19_S19x1_0 : S19.BroadcastsInDim S19x1 (![0] : Fin 1 → Fin S19x1.rank)
  bcast_S19x1_S19x256_0_1 : S19x1.BroadcastsInDim S19x256 (![0, 1] : Fin 2 → Fin S19x256.rank)
  bcast_S_S19x256 : S_.BroadcastsInDim S19x256 (![] : Fin 0 → Fin S19x256.rank)
  dot_S264x8192_S8192x128_S264x128_1_0_0_1_n_n_wf : DotDims.WF S264x8192 S8192x128 S264x128 [1] [0] [0] [1] [] []
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S8x256x32768.size a
  hwx0_0 : ∀ i : grid0.Coords, EltTy.bits .f32 = 32 ∨ (Rect.block (s := S8x256x32768) S1x256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S8x1x32768.size a
  hwx0_1 : ∀ i : grid0.Coords, EltTy.bits .i32 = 32 ∨ (Rect.block (s := S8x1x32768) S1x1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S8x256x128.size a
  hwx0_2 : ∀ i : grid0.Coords, EltTy.bits .f32 = 32 ∨ (Rect.block (s := S8x256x128) S1x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

def dot_S264x8192_S8192x128_S264x128_1_0_0_1_n_n : DotDims S264x8192 S8192x128 S264x128 where
  lhsContracting := [1]
  rhsContracting := [0]
  lhsNonContracting := [0]
  rhsNonContracting := [1]
  lhsBatch := []
  rhsBatch := []
  wf := dot_S264x8192_S8192x128_S264x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_v0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x256x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x256x128x256 : Shape := ⟨4, ![8, 256, 128, 256]⟩
abbrev S8x128x256 : Shape := ⟨3, ![8, 128, 256]⟩
abbrev S8x128x256x256 : Shape := ⟨4, ![8, 128, 256, 256]⟩
abbrev S262144x256 : Shape := ⟨2, ![262144, 256]⟩
abbrev S262144 : Shape := ⟨1, ![262144]⟩
abbrev S_ : Shape := ⟨0, ![]⟩
abbrev S19x256 : Shape := ⟨2, ![19, 256]⟩
abbrev S262144x1 : Shape := ⟨2, ![262144, 1]⟩
abbrev S19 : Shape := ⟨1, ![19]⟩
abbrev S19x1 : Shape := ⟨2, ![19, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x256x128x256, .f32⟩
  | .hbm, ⟨1, _⟩ => ⟨S8x128x256, .i32⟩
  | .hbm, ⟨2, _⟩ => ⟨S8x128x256x256, .f32⟩
  | .hbm, ⟨3, _⟩ => ⟨S262144x256, .f32⟩
  | .hbm, ⟨4, _⟩ => ⟨S262144, .i32⟩
  | .hbm, ⟨5, _⟩ => ⟨S_, .f32⟩
  | .hbm, ⟨6, _⟩ => ⟨S19x256, .f32⟩
  | .hbm, ⟨7, _⟩ => ⟨S262144x1, .i32⟩
  | .hbm, ⟨8, _⟩ => ⟨S19x256, .f32⟩
  | .hbm, ⟨9, _⟩ => ⟨S_, .f32⟩
  | .hbm, ⟨10, _⟩ => ⟨S262144, .f32⟩
  | .hbm, ⟨11, _⟩ => ⟨S_, .f32⟩
  | .hbm, ⟨12, _⟩ => ⟨S19, .f32⟩
  | .hbm, ⟨13, _⟩ => ⟨S262144x1, .i32⟩
  | .hbm, ⟨14, _⟩ => ⟨S19, .f32⟩
  | .hbm, ⟨15, _⟩ => ⟨S_, .f32⟩
  | .hbm, ⟨16, _⟩ => ⟨S19, .f32⟩
  | .hbm, ⟨17, _⟩ => ⟨S19, .f32⟩
  | .hbm, ⟨18, _⟩ => ⟨S_, .f32⟩
  | .hbm, ⟨19, _⟩ => ⟨S19, .f32⟩
  | .hbm, ⟨20, _⟩ => ⟨S19, .i1⟩
  | .hbm, ⟨21, _⟩ => ⟨S19x1, .i1⟩
  | .hbm, ⟨22, _⟩ => ⟨S19x1, .f32⟩
  | .hbm, ⟨23, _⟩ => ⟨S19x256, .f32⟩
  | .hbm, ⟨24, _⟩ => ⟨S19x256, .f32⟩
  | .hbm, ⟨25, _⟩ => ⟨S_, .f32⟩
  | .hbm, ⟨26, _⟩ => ⟨S_, .f32⟩
  | .hbm, ⟨27, _⟩ => ⟨S19x256, .i1⟩
  | .hbm, ⟨28, _⟩ => ⟨S19x256, .f32⟩
  | .hbm, ⟨29, _⟩ => ⟨S19x256, .f32⟩
  | .hbm, ⟨30, _⟩ => ⟨S262144x256, .f32⟩
  | .hbm, ⟨31, _⟩ => ⟨S_, .f32⟩
  | .hbm, ⟨32, _⟩ => ⟨S262144, .f32⟩
  | .hbm, ⟨33, _⟩ => ⟨S262144, .f32⟩
  | .hbm, ⟨34, _⟩ => ⟨S_, .f32⟩
  | .hbm, ⟨35, _⟩ => ⟨S19, .f32⟩
  | .hbm, ⟨36, _⟩ => ⟨S262144x1, .i32⟩
  | .hbm, ⟨37, _⟩ => ⟨S19, .f32⟩
  | .hbm, ⟨38, _⟩ => ⟨S19, .f32⟩
  | .hbm, ⟨39, _⟩ => ⟨S_, .f32⟩
  | .hbm, ⟨40, _⟩ => ⟨S_, .f32⟩
  | .hbm, ⟨41, _⟩ => ⟨S19, .f32⟩
  | .hbm, ⟨42, _⟩ => ⟨S19, .f32⟩
  | _, _ => ⟨S8x256x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_call2_v0 : Ref sig .tc := ⟨.hbm, 40, rfl⟩
abbrev main_call2_v1 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  transposes_S8x256x128x256_S8x128x256x256_0_2_3_1 : S8x256x128x256.Transposes [0, 2, 3, 1] S8x128x256x256
  shapeCasts_S8x128x256x256_S262144x256 : S8x128x256x256.ShapeCasts S262144x256
  shapeCasts_S8x128x256_S262144 : S8x128x256.ShapeCasts S262144
  bcast_S_S19x256 : S_.BroadcastsInDim S19x256 (![] : Fin 0 → Fin S19x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S19 : S_.BroadcastsInDim S19 (![] : Fin 0 → Fin S19.rank)
  bcast_S19_S19x1_0 : S19.BroadcastsInDim S19x1 (![0] : Fin 1 → Fin S19x1.rank)
  bcast_S19x1_S19x256_0_1 : S19x1.BroadcastsInDim S19x256 (![0, 1] : Fin 2 → Fin S19x256.rank)
  reducesTo_S262144x256_S262144_d1 : S262144x256.ReducesTo [1] S262144
  h_S_ : 0 < S_.numel
  scatter_S19x256_S262144x1_S262144x256_1_0_0_1_wf : ScatterDims.WF S19x256 S262144x1 S262144x256 [1] [0] [0] 1
  scatter_S19_S262144x1_S262144_n_0_0_1_wf : ScatterDims.WF S19 S262144x1 S262144 [] [0] [0] 1

variable [Facts₀]

def scatter_S19x256_S262144x1_S262144x256_1_0_0_1 : ScatterDims S19x256 S262144x1 S262144x256 where
  updateWindowDims := [1]
  insertedWindowDims := [0]
  scatterDimsToOperandDims := [0]
  indexVectorDim := 1
  wf := scatter_S19x256_S262144x1_S262144x256_1_0_0_1_wf
def scatter_S19_S262144x1_S262144_n_0_0_1 : ScatterDims S19 S262144x1 S262144 where
  updateWindowDims := []
  insertedWindowDims := [0]
  scatterDimsToOperandDims := [0]
  indexVectorDim := 1
  wf := scatter_S19_S262144x1_S262144_n_0_0_1_wf

class Facts : Prop extends Facts₀ where

variable [Facts]
-- ==== Proof.Spec.lean ====
/-
  The mathematical content of the certificate, stated once over the argument arrays and free of both programs.

  The inputs are a feature array x[b, c, h, w] (8 images, 256 channels, 128 x 256 pixels) and an integer label
  array y[b, h, w].  A pixel of image b is named by one number q = 256 h + w below 32768.  For a class k below 19:
    classSum   k c = the sum of x[b, c, q] over the pixels (b, q) whose label, read as a signed integer, is k;
    classCount k   = the number of those pixels;
    classNormSum k = the sum over those pixels of the Euclidean norm of the pixel's channel vector.
  A pixel whose label is no class contributes to none of them.  Both programs end by turning these three into
  per-class means, dividing by max(count, 1) and writing 0 for a class no pixel has: meansTail and normTail.
-/
import Idealize.ShloMosaic.PureOps
import Idealize.ShloMosaic.PureOps.Ideal
import Idealize.ShloMosaic.Lib.ValueIdx

noncomputable section

namespace Cert.SegMean

open Idealize.ShloMosaic Idealize.ShloMosaic.ValueIdx

abbrev Feats : Shape := ⟨4, ![8, 256, 128, 256]⟩
abbrev Labels : Shape := ⟨3, ![8, 128, 256]⟩
abbrev ClsCh : Shape := ⟨2, ![19, 256]⟩
abbrev Cls : Shape := ⟨1, ![19]⟩
abbrev ClsCol : Shape := ⟨2, ![19, 1]⟩
abbrev Sc : Shape := ⟨0, ![]⟩

/-- The row of pixel q in its image. -/
def pixRow (q : Fin 32768) : Fin 128 := ⟨q.val / 256, by have := q.isLt; omega⟩
/-- The column of pixel q in its image. -/
def pixCol (q : Fin 32768) : Fin 256 := ⟨q.val % 256, Nat.mod_lt _ (by decide)⟩

/-- Channel c of pixel q of image b. -/
def feat (x : FVec Ideal Feats .f32) (b : Fin 8) (c : Fin 256) (q : Fin 32768) : EReal :=
  x (ix4 b c (pixRow q) (pixCol q))

/-- The label word of pixel q of image b. -/
def label (y : IVec Labels 32) (b : Fin 8) (q : Fin 32768) : BitVec 32 :=
  y (ix3 b (pixRow q) (pixCol q))

/-- The Euclidean norm of a pixel's channel vector. -/
def pixNorm (x : FVec Ideal Feats .f32) (b : Fin 8) (q : Fin 32768) : EReal :=
  Ideal.sqrt (∑ c : Fin 256, feat x b c q * feat x b c q)

/-- Per class and channel: the sum of the channel over the class's pixels. -/
def classSum (x : FVec Ideal Feats .f32) (y : IVec Labels 32) : FVec Ideal ClsCh .f32 := fun i =>
  ∑ b : Fin 8, ∑ q : Fin 32768, if (label y b q).toInt = ((i 0).val : ℤ) then feat x b (i 1) q else 0

/-- Per class: how many pixels it has. -/
def classCount (y : IVec Labels 32) : FVec Ideal Cls .f32 := fun i =>
  ∑ b : Fin 8, ∑ q : Fin 32768, if (label y b q).toInt = ((i 0).val : ℤ) then (1 : EReal) else 0

/-- Per class: the sum of the pixel norms over the class's pixels. -/
def classNormSum (x : FVec Ideal Feats .f32) (y : IVec Labels 32) : FVec Ideal Cls .f32 := fun i =>
  ∑ b : Fin 8, ∑ q : Fin 32768, if (label y b q).toInt = ((i 0).val : ℤ) then pixNorm x b q else 0

/-- From the class sums and counts to the class means: each sum over max(count, 1), and 0 where the count is not
    positive.  Both programs apply exactly these host operations; the certificate never opens them. -/
def meansTail (sums : FVec Ideal ClsCh .f32) (cnt : FVec Ideal Cls .f32) : FVec Ideal ClsCh .f32 :=
  select
    (broadcastInDim ClsCh ![0, 1] (by decide) (broadcastInDim ClsCol ![0] (by decide)
      (cmpf .ogt cnt (broadcastInDim Cls ![] (by decide) (constant (F := Ideal) Sc .f32 0x00000000#32)))))
    (Host.divf sums (broadcastInDim ClsCh ![0, 1] (by decide) (broadcastInDim ClsCol ![0] (by decide)
      (maximumf cnt (broadcastInDim Cls ![] (by decide) (constant (F := Ideal) Sc .f32 0x3F800000#32))))))
    (broadcastInDim ClsCh ![] (by decide) (id (constant (F := Ideal) Sc .f32 0x00000000#32)))

/-- From the class norm sums and counts to the mean norms, likewise. -/
def normTail (ns : FVec Ideal Cls .f32) (cnt : FVec Ideal Cls .f32) : FVec Ideal Cls .f32 :=
  select
    (cmpf .ogt cnt (broadcastInDim Cls ![] (by decide) (constant (F := Ideal) Sc .f32 0x00000000#32)))
    (Host.divf ns (maximumf cnt (broadcastInDim Cls ![] (by decide) (constant (F := Ideal) Sc .f32 0x3F800000#32))))
    (broadcastInDim Cls ![] (by decide) (id (constant (F := Ideal) Sc .f32 0x00000000#32)))

end Cert.SegMean

end
-- ==== Proof.Finite.lean ====
/-
  The precondition says every feature is finite: the printed predicate is the conjunction, over all entries, of
  |x| < +infinity.  An extended real whose absolute value is below +infinity is a real number.
-/
import proofs.«426171_j42460046688734_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.SegMean.Finite

open Idealize.ShloMosaic Idealize.ShloMosaic.ValueIdx

/-- The result shape of the predicate has a single index. -/
private instance : Subsingleton Cert.Pre_finite_inputs.S_.Idx := ⟨fun a b => funext fun d => d.elim0⟩

/-- The word 0x7F800000 denotes +infinity. -/
private theorem inf_word : Ideal.ofBits .f32 0x7F800000#32 = (⊤ : EReal) := by
  simp [Ideal.ofBits, Ideal.ieee]

/-- An extended real whose absolute value max a (-a) lies below +infinity is a real number: at either infinity the
    absolute value is +infinity itself. -/
private theorem real_of_abs_lt_top (a : EReal) (h : max a (-a) < ⊤) : ∃ r : ℝ, a = (r : EReal) := by
  induction a using EReal.rec with
  | bot => simp at h
  | coe r => exact ⟨r, rfl⟩
  | top => simp at h

/-- Where the precondition holds, every entry of the feature array is a real number. -/
theorem real_of_pre [Cert.Pre_finite_inputs.Facts]
    (x : FVec Ideal Cert.Pre_finite_inputs.S8x256x128x256 .f32) (y : IVec Cert.Pre_finite_inputs.S8x128x256 32)
    (h : Cert.Pre_finite_inputs.fn (F := Ideal) x y = fun _ => 1#1) (i : Cert.Pre_finite_inputs.S8x256x128x256.Idx) :
    ∃ r : ℝ, x i = (r : EReal) := by
  -- the predicate's one word is 1, so the conjunction over all entries holds entry by entry
  have h0 := congrFun h ValueIdx.ix0
  dsimp only [Cert.Pre_finite_inputs.fn] at h0
  have h1 := Host.reduce_andi_all _ _ _ _ _ h0 i
  -- the entry's word is the comparison |x i| < +infinity
  have h2 : Ideal.cmp .olt (max (x i) (-(x i))) (Ideal.ofBits .f32 0x7F800000#32) = 1#1 := h1
  rw [inf_word] at h2
  refine real_of_abs_lt_top (x i) ?_
  by_contra hn
  simp [Ideal.cmp, hn] at h2

end Cert.SegMean.Finite

end
-- ==== Proof.Tile.lean ====
/-
  What one grid point leaves in each buffer, as a term of the body's arithmetic.

  The kernel carries two accumulators between the points of one image: a 256 x 128 array of per-channel class sums
  and an 8 x 128 array of statistics rows.  At the first pixel tile of an image both are set to zero and the tile's
  contribution is added; at every later tile the contribution is added to what the tile before left; at the last
  tile the two accumulators are also copied out to the image's output blocks.  Each lemma below says that what a
  case of the body leaves in a buffer is that formula applied to the tile's two input blocks (and, past the first
  tile, to the accumulators found there), whatever the staging memrefs are.
-/
import proofs.«426171_j42460046688734_3_alg».proof.Proof.Gen.KernelIdeal.Frame
import Idealize.ShloMosaic.Lib.Pipeline.Value

set_option maxRecDepth 16384

noncomputable section

namespace Cert.KernelIdeal.Tile

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of an image: the sums accumulator is the tile's contribution added to zero. -/
theorem sout0_A_0_eq (c : Dev nD) (i : grid0.Coords) (arg2 : Memref sig .tc .vmem S1x256x8192 .f32) (harg2 : arg2.IsWhole) (arg3 : Memref sig .tc .vmem S1x1x8192 .i32) (harg3 : arg3.IsWhole) (arg4 : Memref sig .tc .vmem S1x256x128 .f32) (harg4 : arg4.IsWhole) (arg5 : Memref sig .tc .vmem S1x8x128 .f32) (harg5 : arg5.IsWhole) (arg6 : Memref sig .tc .vmem S256x128 .f32) (harg6 : arg6.IsWhole) (arg7 : Memref sig .tc .vmem S8x128 .f32) (harg7 : arg7.IsWhole) (hc0 : cond0_0 i) (hc1 : ¬cond0_1 i)
    (x0 : Vec F S1x256x8192 .f32) (x1 : Vec F S1x1x8192 .i32) :
    sout0_A_0 c i arg2 harg2 arg3 harg3 arg4 harg4 arg5 harg5 arg6 harg6 arg7 harg7 hc0 hc1 x0 x1 = k0_pay10 x0 x1 (k0_pay4 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  try sl_unfold_words
  rw [View.canon_cons_unit_zero (S := S256x128) hz2, View.readCov_unit_zero (S := S256x128) _ hz2]
  simp only [View.readAt_eq_ld, harg2.read_unread, harg3.read_unread, harg4.read_unread, harg5.read_unread, harg6.read_unread, harg7.read_unread, View.ld_unit_zero (S := S256x128) hz2, View.ld_unit_zero (S := S8x128) hz2, View.ld_unit_zero (S := S1x256x8192) hz3, View.ld_unit_zero (S := S1x1x8192) hz3, View.ld_unit_zero (S := S1x256x128) hz3, View.ld_unit_zero (S := S1x8x128) hz3, View.readCov_unit_zero (S := S256x128) _ hz2, View.readCov_unit_zero (S := S8x128) _ hz2, shapeCast_self]

/-- First tile of an image: the statistics accumulator is the tile's contribution added to zero. -/
theorem sout0_A_1_eq (c : Dev nD) (i : grid0.Coords) (arg2 : Memref sig .tc .vmem S1x256x8192 .f32) (harg2 : arg2.IsWhole) (arg3 : Memref sig .tc .vmem S1x1x8192 .i32) (harg3 : arg3.IsWhole) (arg4 : Memref sig .tc .vmem S1x256x128 .f32) (harg4 : arg4.IsWhole) (arg5 : Memref sig .tc .vmem S1x8x128 .f32) (harg5 : arg5.IsWhole) (arg6 : Memref sig .tc .vmem S256x128 .f32) (harg6 : arg6.IsWhole) (arg7 : Memref sig .tc .vmem S8x128 .f32) (harg7 : arg7.IsWhole) (hc0 : cond0_0 i) (hc1 : ¬cond0_1 i)
    (x0 : Vec F S1x256x8192 .f32) (x1 : Vec F S1x1x8192 .i32) :
    sout0_A_1 c i arg2 harg2 arg3 harg3 arg4 harg4 arg5 harg5 arg6 harg6 arg7 harg7 hc0 hc1 x0 x1 = k0_pay1 (k0_pay9 x0 x1) (k0_pay5 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  try sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread, harg7.read_unread, View.ld_unit_zero (S := S256x128) hz2, View.ld_unit_zero (S := S8x128) hz2, View.ld_unit_zero (S := S1x256x8192) hz3, View.ld_unit_zero (S := S1x1x8192) hz3, View.ld_unit_zero (S := S1x256x128) hz3, View.ld_unit_zero (S := S1x8x128) hz3, View.readCov_unit_zero (S := S256x128) _ hz2, View.readCov_unit_zero (S := S8x128) _ hz2, shapeCast_self]

/-- A middle tile: the sums accumulator is the tile's contribution added to what the tile before left. -/
theorem sout0_B_0_eq (c : Dev nD) (i : grid0.Coords) (arg2 : Memref sig .tc .vmem S1x256x8192 .f32) (harg2 : arg2.IsWhole) (arg3 : Memref sig .tc .vmem S1x1x8192 .i32) (harg3 : arg3.IsWhole) (arg4 : Memref sig .tc .vmem S1x256x128 .f32) (harg4 : arg4.IsWhole) (arg5 : Memref sig .tc .vmem S1x8x128 .f32) (harg5 : arg5.IsWhole) (arg6 : Memref sig .tc .vmem S256x128 .f32) (harg6 : arg6.IsWhole) (arg7 : Memref sig .tc .vmem S8x128 .f32) (harg7 : arg7.IsWhole) (hc0 : ¬cond0_0 i) (hc1 : ¬cond0_1 i)
    (x0 : Vec F S1x256x8192 .f32) (x1 : Vec F S1x1x8192 .i32) (xs0 : Vec F S256x128 .f32) (xs1 : Vec F S8x128 .f32) :
    sout0_B_0 c i arg2 harg2 arg3 harg3 arg4 harg4 arg5 harg5 arg6 harg6 arg7 harg7 hc0 hc1 x0 x1 xs0 xs1 = k0_pay10 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  try sl_unfold_words
  rw [View.canon_unit_zero (S := S256x128) hz2]
  simp only [View.readAt_eq_ld, harg2.read_unread, harg3.read_unread, harg4.read_unread, harg5.read_unread, harg6.read_unread, harg7.read_unread, View.ld_unit_zero (S := S256x128) hz2, View.ld_unit_zero (S := S8x128) hz2, View.ld_unit_zero (S := S1x256x8192) hz3, View.ld_unit_zero (S := S1x1x8192) hz3, View.ld_unit_zero (S := S1x256x128) hz3, View.ld_unit_zero (S := S1x8x128) hz3, View.readCov_unit_zero (S := S256x128) _ hz2, View.readCov_unit_zero (S := S8x128) _ hz2, shapeCast_self]

/-- A middle tile: the statistics accumulator likewise. -/
theorem sout0_B_1_eq (c : Dev nD) (i : grid0.Coords) (arg2 : Memref sig .tc .vmem S1x256x8192 .f32) (harg2 : arg2.IsWhole) (arg3 : Memref sig .tc .vmem S1x1x8192 .i32) (harg3 : arg3.IsWhole) (arg4 : Memref sig .tc .vmem S1x256x128 .f32) (harg4 : arg4.IsWhole) (arg5 : Memref sig .tc .vmem S1x8x128 .f32) (harg5 : arg5.IsWhole) (arg6 : Memref sig .tc .vmem S256x128 .f32) (harg6 : arg6.IsWhole) (arg7 : Memref sig .tc .vmem S8x128 .f32) (harg7 : arg7.IsWhole) (hc0 : ¬cond0_0 i) (hc1 : ¬cond0_1 i)
    (x0 : Vec F S1x256x8192 .f32) (x1 : Vec F S1x1x8192 .i32) (xs0 : Vec F S256x128 .f32) (xs1 : Vec F S8x128 .f32) :
    sout0_B_1 c i arg2 harg2 arg3 harg3 arg4 harg4 arg5 harg5 arg6 harg6 arg7 harg7 hc0 hc1 x0 x1 xs0 xs1 = k0_pay1 (k0_pay9 x0 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  try sl_unfold_words
  rw [View.canon_unit_zero (S := S8x128) hz2]
  simp only [View.readAt_eq_ld, harg2.read_unread, harg3.read_unread, harg4.read_unread, harg5.read_unread, harg6.read_unread, harg7.read_unread, View.ld_unit_zero (S := S256x128) hz2, View.ld_unit_zero (S := S8x128) hz2, View.ld_unit_zero (S := S1x256x8192) hz3, View.ld_unit_zero (S := S1x1x8192) hz3, View.ld_unit_zero (S := S1x256x128) hz3, View.ld_unit_zero (S := S1x8x128) hz3, View.readCov_unit_zero (S := S256x128) _ hz2, View.readCov_unit_zero (S := S8x128) _ hz2, shapeCast_self]

/-- The last tile: the sums accumulator steps as at a middle tile. -/
theorem sout0_C_0_eq (c : Dev nD) (i : grid0.Coords) (arg2 : Memref sig .tc .vmem S1x256x8192 .f32) (harg2 : arg2.IsWhole) (arg3 : Memref sig .tc .vmem S1x1x8192 .i32) (harg3 : arg3.IsWhole) (arg4 : Memref sig .tc .vmem S1x256x128 .f32) (harg4 : arg4.IsWhole) (arg5 : Memref sig .tc .vmem S1x8x128 .f32) (harg5 : arg5.IsWhole) (arg6 : Memref sig .tc .vmem S256x128 .f32) (harg6 : arg6.IsWhole) (arg7 : Memref sig .tc .vmem S8x128 .f32) (harg7 : arg7.IsWhole) (hc0 : ¬cond0_0 i) (hc1 : cond0_1 i)
    (x0 : Vec F S1x256x8192 .f32) (x1 : Vec F S1x1x8192 .i32) (xs0 : Vec F S256x128 .f32) (xs1 : Vec F S8x128 .f32) :
    sout0_C_0 c i arg2 harg2 arg3 harg3 arg4 harg4 arg5 harg5 arg6 harg6 arg7 harg7 hc0 hc1 x0 x1 xs0 xs1 = k0_pay10 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  try sl_unfold_words
  rw [View.canon_unit_zero (S := S256x128) hz2]
  simp only [View.readAt_eq_ld, harg2.read_unread, harg3.read_unread, harg4.read_unread, harg5.read_unread, harg6.read_unread, harg7.read_unread, View.ld_unit_zero (S := S256x128) hz2, View.ld_unit_zero (S := S8x128) hz2, View.ld_unit_zero (S := S1x256x8192) hz3, View.ld_unit_zero (S := S1x1x8192) hz3, View.ld_unit_zero (S := S1x256x128) hz3, View.ld_unit_zero (S := S1x8x128) hz3, View.readCov_unit_zero (S := S256x128) _ hz2, View.readCov_unit_zero (S := S8x128) _ hz2, shapeCast_self]

/-- The last tile: the statistics accumulator steps as at a middle tile. -/
theorem sout0_C_1_eq (c : Dev nD) (i : grid0.Coords) (arg2 : Memref sig .tc .vmem S1x256x8192 .f32) (harg2 : arg2.IsWhole) (arg3 : Memref sig .tc .vmem S1x1x8192 .i32) (harg3 : arg3.IsWhole) (arg4 : Memref sig .tc .vmem S1x256x128 .f32) (harg4 : arg4.IsWhole) (arg5 : Memref sig .tc .vmem S1x8x128 .f32) (harg5 : arg5.IsWhole) (arg6 : Memref sig .tc .vmem S256x128 .f32) (harg6 : arg6.IsWhole) (arg7 : Memref sig .tc .vmem S8x128 .f32) (harg7 : arg7.IsWhole) (hc0 : ¬cond0_0 i) (hc1 : cond0_1 i)
    (x0 : Vec F S1x256x8192 .f32) (x1 : Vec F S1x1x8192 .i32) (xs0 : Vec F S256x128 .f32) (xs1 : Vec F S8x128 .f32) :
    sout0_C_1 c i arg2 harg2 arg3 harg3 arg4 harg4 arg5 harg5 arg6 harg6 arg7 harg7 hc0 hc1 x0 x1 xs0 xs1 = k0_pay1 (k0_pay9 x0 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  try sl_unfold_words
  rw [View.canon_unit_zero (S := S8x128) hz2]
  simp only [View.readAt_eq_ld, harg2.read_unread, harg3.read_unread, harg4.read_unread, harg5.read_unread, harg6.read_unread, harg7.read_unread, View.ld_unit_zero (S := S256x128) hz2, View.ld_unit_zero (S := S8x128) hz2, View.ld_unit_zero (S := S1x256x8192) hz3, View.ld_unit_zero (S := S1x1x8192) hz3, View.ld_unit_zero (S := S1x256x128) hz3, View.ld_unit_zero (S := S1x8x128) hz3, View.readCov_unit_zero (S := S256x128) _ hz2, View.readCov_unit_zero (S := S8x128) _ hz2, shapeCast_self]

/-- The last tile: the image's sums block is the finished sums accumulator. -/
theorem out0_C_2_eq (c : Dev nD) (i : grid0.Coords) (arg2 : Memref sig .tc .vmem S1x256x8192 .f32) (harg2 : arg2.IsWhole) (arg3 : Memref sig .tc .vmem S1x1x8192 .i32) (harg3 : arg3.IsWhole) (arg4 : Memref sig .tc .vmem S1x256x128 .f32) (harg4 : arg4.IsWhole) (arg5 : Memref sig .tc .vmem S1x8x128 .f32) (harg5 : arg5.IsWhole) (arg6 : Memref sig .tc .vmem S256x128 .f32) (harg6 : arg6.IsWhole) (arg7 : Memref sig .tc .vmem S8x128 .f32) (harg7 : arg7.IsWhole) (hc0 : ¬cond0_0 i) (hc1 : cond0_1 i)
    (x0 : Vec F S1x256x8192 .f32) (x1 : Vec F S1x1x8192 .i32) (xs0 : Vec F S256x128 .f32) (xs1 : Vec F S8x128 .f32) :
    out0_C_2 c i arg2 harg2 arg3 harg3 arg4 harg4 arg5 harg5 arg6 harg6 arg7 harg7 hc0 hc1 x0 x1 xs0 xs1 = k0_pay2 (k0_pay10 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  try sl_unfold_words
  rw [View.canon_unit_zero (S := S1x256x128) hz3]
  simp only [View.readAt_eq_ld, harg2.read_unread, harg3.read_unread, harg4.read_unread, harg5.read_unread, harg6.read_unread, harg7.read_unread, View.ld_unit_zero (S := S256x128) hz2, View.ld_unit_zero (S := S8x128) hz2, View.ld_unit_zero (S := S1x256x8192) hz3, View.ld_unit_zero (S := S1x1x8192) hz3, View.ld_unit_zero (S := S1x256x128) hz3, View.ld_unit_zero (S := S1x8x128) hz3, View.readCov_unit_zero (S := S256x128) _ hz2, View.readCov_unit_zero (S := S8x128) _ hz2, shapeCast_self]

/-- The last tile: the image's statistics block is the finished statistics accumulator. -/
theorem out0_C_3_eq (c : Dev nD) (i : grid0.Coords) (arg2 : Memref sig .tc .vmem S1x256x8192 .f32) (harg2 : arg2.IsWhole) (arg3 : Memref sig .tc .vmem S1x1x8192 .i32) (harg3 : arg3.IsWhole) (arg4 : Memref sig .tc .vmem S1x256x128 .f32) (harg4 : arg4.IsWhole) (arg5 : Memref sig .tc .vmem S1x8x128 .f32) (harg5 : arg5.IsWhole) (arg6 : Memref sig .tc .vmem S256x128 .f32) (harg6 : arg6.IsWhole) (arg7 : Memref sig .tc .vmem S8x128 .f32) (harg7 : arg7.IsWhole) (hc0 : ¬cond0_0 i) (hc1 : cond0_1 i)
    (x0 : Vec F S1x256x8192 .f32) (x1 : Vec F S1x1x8192 .i32) (xs0 : Vec F S256x128 .f32) (xs1 : Vec F S8x128 .f32) :
    out0_C_3 c i arg2 harg2 arg3 harg3 arg4 harg4 arg5 harg5 arg6 harg6 arg7 harg7 hc0 hc1 x0 x1 xs0 xs1 = k0_pay3 (k0_pay1 (k0_pay9 x0 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  try sl_unfold_words
  rw [View.canon_unit_zero (S := S1x8x128) hz3]
  simp only [View.readAt_eq_ld, harg2.read_unread, harg3.read_unread, harg4.read_unread, harg5.read_unread, harg6.read_unread, harg7.read_unread, View.ld_unit_zero (S := S256x128) hz2, View.ld_unit_zero (S := S8x128) hz2, View.ld_unit_zero (S := S1x256x8192) hz3, View.ld_unit_zero (S := S1x1x8192) hz3, View.ld_unit_zero (S := S1x256x128) hz3, View.ld_unit_zero (S := S1x8x128) hz3, View.readCov_unit_zero (S := S256x128) _ hz2, View.readCov_unit_zero (S := S8x128) _ hz2, shapeCast_self]

end Cert.KernelIdeal.Tile

end
-- ==== Proof.Fold.lean ====
/-
  The two accumulators over an image's run of tiles.

  The grid visits image b's four pixel tiles at the points 4 b, 4 b + 1, 4 b + 2, 4 b + 3.  What the sums
  accumulator holds after any point is therefore a fold: the reset value at the run's first point, stepped through
  the later ones; the same for the statistics accumulator.  At the run's last point the body also copies both out,
  so what that point writes back to the image's output blocks is the finished fold.
-/
import proofs.«426171_j42460046688734_3_alg».proof.Proof.Tile

set_option maxRecDepth 16384

noncomputable section

namespace Cert.KernelIdeal.Fold

open Cert.KernelIdeal Cert.KernelIdeal.Gen Cert.KernelIdeal.Tile Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The feature block of the tile at point n, at its literal type. -/
abbrev xblk (c : Dev nD) (n : ℕ) (h : n < cfg0.N) : Vec F S1x256x8192 .f32 := iblk m c 0 ⟨n, h⟩
/-- The label block of the tile at point n, at its literal type. -/
abbrev sblk (c : Dev nD) (n : ℕ) (h : n < cfg0.N) : Vec F S1x1x8192 .i32 := iblk m c 1 ⟨n, h⟩

/-- The sums accumulator after an image's first tile. -/
def sumsReset (c : Dev nD) (n : ℕ) (h : n < cfg0.N) : Vec F S256x128 .f32 :=
  k0_pay10 (xblk m c n h) (sblk m c n h) (k0_pay4 (F := F))
/-- The sums accumulator after a later tile, from what the tile before left. -/
def sumsStep (c : Dev nD) (n : ℕ) (h : n < cfg0.N) (acc : Vec F S256x128 .f32) : Vec F S256x128 .f32 :=
  k0_pay10 (xblk m c n h) (sblk m c n h) acc
/-- The statistics accumulator after an image's first tile. -/
def statsReset (c : Dev nD) (n : ℕ) (h : n < cfg0.N) : Vec F S8x128 .f32 :=
  k0_pay1 (k0_pay9 (xblk m c n h) (sblk m c n h)) (k0_pay5 (F := F))
/-- The statistics accumulator after a later tile, from what the tile before left. -/
def statsStep (c : Dev nD) (n : ℕ) (h : n < cfg0.N) (acc : Vec F S8x128 .f32) : Vec F S8x128 .f32 :=
  k0_pay1 (k0_pay9 (xblk m c n h) (sblk m c n h)) acc

/-- At an image's first tile the sums accumulator is reset and the tile added. -/
theorem sums_reset (c : Dev nD) (n : ℕ) (h : n < cfg0.N) (hn : n % 4 = 0) :
    (outsAt0 m c n h).2.2.1 = k0_pay10 (iblk m c 0 ⟨n, h⟩) (iblk m c 1 ⟨n, h⟩) (k0_pay4 (F := F)) := by
  have hN := lt_of_lt_of_eq h (show cfg0.N = 32 from N_0)
  have h0 : (⟨n, h⟩ : Fin cfg0.N).val % 4 = 0 := hn
  have h1 : ¬(⟨n, h⟩ : Fin cfg0.N).val % 4 = 3 := by (try dsimp only); omega
  show (outsAt0 m c (⟨n, h⟩ : Fin cfg0.N).val (⟨n, h⟩ : Fin cfg0.N).isLt).2.2.1 = _
  rw [outsAt0_A m c ⟨n, h⟩ h0 h1]
  dsimp only
  rw [sout0_A_0_eq]

/-- At an image's first tile the statistics accumulator is reset and the tile added. -/
theorem stats_reset (c : Dev nD) (n : ℕ) (h : n < cfg0.N) (hn : n % 4 = 0) :
    (outsAt0 m c n h).2.2.2 = k0_pay1 (k0_pay9 (iblk m c 0 ⟨n, h⟩) (iblk m c 1 ⟨n, h⟩)) (k0_pay5 (F := F)) := by
  have hN := lt_of_lt_of_eq h (show cfg0.N = 32 from N_0)
  have h0 : (⟨n, h⟩ : Fin cfg0.N).val % 4 = 0 := hn
  have h1 : ¬(⟨n, h⟩ : Fin cfg0.N).val % 4 = 3 := by (try dsimp only); omega
  show (outsAt0 m c (⟨n, h⟩ : Fin cfg0.N).val (⟨n, h⟩ : Fin cfg0.N).isLt).2.2.2 = _
  rw [outsAt0_A m c ⟨n, h⟩ h0 h1]
  dsimp only
  rw [sout0_A_1_eq]

/-- At a later tile the sums accumulator steps from what the tile before left, whether or not the tile is the last. -/
theorem sums_step (c : Dev nD) (n : ℕ) (h : n + 1 < cfg0.N) (h0 : ¬(n + 1) % 4 = 0) :
    (outsAt0 m c (n + 1) h).2.2.1 = k0_pay10 (iblk m c 0 ⟨n + 1, h⟩) (iblk m c 1 ⟨n + 1, h⟩) ((outsAt0 m c n (Nat.lt_of_succ_lt h)).2.2.1) := by
  by_cases h1 : (n + 1) % 4 = 3
  · rw [outsAt0, dif_neg h0, dif_pos h1]
    dsimp only
    rw [sout0_C_0_eq]
  · rw [outsAt0, dif_neg h0, dif_neg h1]
    dsimp only
    rw [sout0_B_0_eq]

/-- At a later tile the statistics accumulator steps from what the tile before left. -/
theorem stats_step (c : Dev nD) (n : ℕ) (h : n + 1 < cfg0.N) (h0 : ¬(n + 1) % 4 = 0) :
    (outsAt0 m c (n + 1) h).2.2.2 = k0_pay1 (k0_pay9 (iblk m c 0 ⟨n + 1, h⟩) (iblk m c 1 ⟨n + 1, h⟩)) ((outsAt0 m c n (Nat.lt_of_succ_lt h)).2.2.2) := by
  by_cases h1 : (n + 1) % 4 = 3
  · rw [outsAt0, dif_neg h0, dif_pos h1]
    dsimp only
    rw [sout0_C_1_eq]
  · rw [outsAt0, dif_neg h0, dif_neg h1]
    dsimp only
    rw [sout0_B_1_eq]

/-- The sums accumulator after point t is the fold of its image's run up to t. -/
theorem sums_fold (c : Dev nD) (t : Fin cfg0.N) :
    (outsAt0 m c t.val t.isLt).2.2.1 = Pipeline.accAt (sumsReset m c) (sumsStep m c) (4 * (t.val / 4)) (t.val % 4)
      (by have h1 := t.isLt; have h2 := Nat.div_add_mod t.val 4; omega) :=
  Pipeline.eq_accAt_of_mod (fun n h => (outsAt0 m c n h).2.2.1) 4 (sumsReset m c) (sumsStep m c)
    (fun n h hn => sums_reset m c n h hn)
    (fun n h hn => sums_step m c n h hn)
    (by decide) t.val t.isLt _

/-- The statistics accumulator after point t is the fold of its image's run up to t. -/
theorem stats_fold (c : Dev nD) (t : Fin cfg0.N) :
    (outsAt0 m c t.val t.isLt).2.2.2 = Pipeline.accAt (statsReset m c) (statsStep m c) (4 * (t.val / 4)) (t.val % 4)
      (by have h1 := t.isLt; have h2 := Nat.div_add_mod t.val 4; omega) :=
  Pipeline.eq_accAt_of_mod (fun n h => (outsAt0 m c n h).2.2.2) 4 (statsReset m c) (statsStep m c)
    (fun n h hn => stats_reset m c n h hn)
    (fun n h hn => stats_step m c n h hn)
    (by decide) t.val t.isLt _

/-- At an image's last tile the sums block handed to the write-back is the sums accumulator of that point. -/
theorem out_sums_last (c : Dev nD) (t : Fin cfg0.N) (h1 : t.val % 4 = 3) :
    (outsAt0 m c t.val t.isLt).1 = k0_pay2 ((outsAt0 m c t.val t.isLt).2.2.1) := by
  have h0 : ¬t.val % 4 = 0 := by omega
  rw [outsAt0_C m c t h0 h1]
  dsimp only
  rw [out0_C_2_eq, sout0_C_0_eq]

/-- At an image's last tile the statistics block handed to the write-back is the statistics accumulator of that point. -/
theorem out_stats_last (c : Dev nD) (t : Fin cfg0.N) (h1 : t.val % 4 = 3) :
    (outsAt0 m c t.val t.isLt).2.1 = k0_pay3 ((outsAt0 m c t.val t.isLt).2.2.2) := by
  have h0 : ¬t.val % 4 = 0 := by omega
  rw [outsAt0_C m c t h0 h1]
  dsimp only
  rw [out0_C_3_eq, sout0_C_1_eq]

end Cert.KernelIdeal.Fold

end
-- ==== Proof.Arrays.lean ====
/-
  The kernel's two output arrays after the run.

  Image b's block of each output array is written back once, at the last of the image's four tiles (point 4 b + 3),
  and holds the accumulator as that tile leaves it, with a leading unit axis.  The blocks of the eight images tile
  each array, so after the run entry (b, r, k) of an output array is the corresponding accumulator after point
  4 b + 3 at (r, k).
-/
import proofs.«426171_j42460046688734_3_alg».proof.Proof.Fold
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Fold
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The last tile of image b is a point of the grid. -/
theorem last_lt (b : ℕ) (hb : b < 8) : 4 * b + 3 < cfg0.N := by
  rw [show cfg0.N = 32 from N_0]; omega

/-- The contents after a point depend on the point only. -/
theorem outsAt0_congr (c : Dev nD) (k : ℕ) (hk : k < cfg0.N) (k' : ℕ) (hk' : k' < cfg0.N) (e : k = k') :
    outsAt0 m c k hk = outsAt0 m c k' hk' := by subst e; rfl

/-- The first output array after the run: image b's block is the finished sums accumulator of the image. -/
def sumsArr (c : Dev nD) : Buf (Elt F) ((c : Thread nD τ).loc main_v2_0) := fun i =>
  k0_pay2 ((outsAt0 m c (4 * (i 0).val + 3) (last_lt _ (i 0).isLt)).2.2.1)
    (ix3 (0 : Fin 1) (⟨(i 1).val, (i 1).isLt⟩ : Fin 256) (⟨(i 2).val, (i 2).isLt⟩ : Fin 128))

/-- The second output array after the run: image b's block is the finished statistics accumulator of the image. -/
def statsArr (c : Dev nD) : Buf (Elt F) ((c : Thread nD τ).loc main_v2_1) := fun i =>
  k0_pay3 ((outsAt0 m c (4 * (i 0).val + 3) (last_lt _ (i 0).isLt)).2.2.2)
    (ix3 (0 : Fin 1) (⟨(i 1).val, (i 1).isLt⟩ : Fin 8) (⟨(i 2).val, (i 2).isLt⟩ : Fin 128))

/-- The output windows' block indices over the grid: image t / 4, and the one block of the other two axes. -/
theorem idx_out2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx_out3 : ∀ t : Fin cfg0.N, win0_3.index t (0 : Fin 3) = t.val / 4 ∧ win0_3.index t (1 : Fin 3) = 0 ∧ win0_3.index t (2 : Fin 3) = 0 :=
  (by decide +kernel : ∀ t : Fin grid0.N, _)

/-- What a point that writes the sums block back writes is that block of `sumsArr`. -/
theorem flushed2_eq (c : Dev nD) (t : Fin cfg0.N) (hf : (cfg0.win 2).flush t = true) :
    (dats m 0 c).flushed 2 t = ((cfg0.win 2).blk t).view.read (Elt F) (sumsArr m c) := by
  have h3 : t.val % 4 = 3 := (flush0_2 t).mp hf
  show (cfg0.win 2).cut (grid0.coords t) ((dats m 0 c).after 2 t) = _
  rw [after0_2, out_sums_last m c t h3]
  obtain ⟨e0, e1, e2⟩ := idx_out2 t
  funext y
  have hy0 : (y 0).val < 1 := (y 0).isLt
  have hb0 : (((cfg0.win 2).blk t).view.emb y 0).val = win0_2.index t (0 : Fin 3) * 1 + 1 * (y 0).val := rfl
  have hb1 : (((cfg0.win 2).blk t).view.emb y 1).val = win0_2.index t (1 : Fin 3) * 256 + 1 * (y 1).val := rfl
  have hb2 : (((cfg0.win 2).blk t).view.emb y 2).val = win0_2.index t (2 : Fin 3) * 128 + 1 * (y 2).val := rfl
  show k0_pay2 ((outsAt0 m c t.val t.isLt).2.2.1) ((cfg0.win 2).xinj (grid0.coords t) y) = sumsArr m c (((cfg0.win 2).blk t).view.emb y)
  unfold sumsArr
  have ht : t.val = 4 * (((cfg0.win 2).blk t).view.emb y 0).val + 3 := by rw [hb0, e0]; omega
  rw [outsAt0_congr m c t.val t.isLt _ (last_lt _ (((cfg0.win 2).blk t).view.emb y 0).isLt) ht]
  refine congrArg _ (funext fun a => Fin.ext ?_)
  match a with
  | ⟨0, _⟩ => show (y 0).val = 0; omega
  | ⟨1, _⟩ => show (y 1).val = (((cfg0.win 2).blk t).view.emb y 1).val; rw [hb1, e1]; omega
  | ⟨2, _⟩ => show (y 2).val = (((cfg0.win 2).blk t).view.emb y 2).val; rw [hb2, e2]; omega

/-- What a point that writes the statistics block back writes is that block of `statsArr`. -/
theorem flushed3_eq (c : Dev nD) (t : Fin cfg0.N) (hf : (cfg0.win 3).flush t = true) :
    (dats m 0 c).flushed 3 t = ((cfg0.win 3).blk t).view.read (Elt F) (statsArr m c) := by
  have h3 : t.val % 4 = 3 := (flush0_3 t).mp hf
  show (cfg0.win 3).cut (grid0.coords t) ((dats m 0 c).after 3 t) = _
  rw [after0_3, out_stats_last m c t h3]
  obtain ⟨e0, e1, e2⟩ := idx_out3 t
  funext y
  have hy0 : (y 0).val < 1 := (y 0).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 8 + 1 * (y 1).val := rfl
  have hb2 : (((cfg0.win 3).blk t).view.emb y 2).val = win0_3.index t (2 : Fin 3) * 128 + 1 * (y 2).val := rfl
  show k0_pay3 ((outsAt0 m c t.val t.isLt).2.2.2) ((cfg0.win 3).xinj (grid0.coords t) y) = statsArr m c (((cfg0.win 3).blk t).view.emb y)
  unfold statsArr
  have ht : t.val = 4 * (((cfg0.win 3).blk t).view.emb y 0).val + 3 := by rw [hb0, e0]; omega
  rw [outsAt0_congr m c t.val t.isLt _ (last_lt _ (((cfg0.win 3).blk t).view.emb y 0).isLt) ht]
  refine congrArg _ (funext fun a => Fin.ext ?_)
  match a with
  | ⟨0, _⟩ => show (y 0).val = 0; omega
  | ⟨1, _⟩ => show (y 1).val = (((cfg0.win 3).blk t).view.emb y 1).val; rw [hb1, e1]; omega
  | ⟨2, _⟩ => show (y 2).val = (((cfg0.win 3).blk t).view.emb y 2).val; rw [hb2, e2]; omega

/-- An index of the sums array is in point t's block iff each coordinate is in the block's range on its axis. -/
theorem mem_blk2 (t : Fin cfg0.N) (i : S8x256x128.Idx) :
    i ∈ ((cfg0.win 2).blk t).view.set ↔ ∀ a : Fin 3, win0_2.index t a * S1x256x128.size a ≤ (i a).val ∧ (i a).val < win0_2.index t a * S1x256x128.size a + S1x256x128.size a := by
  show i ∈ ((View.whole main_v2_0).slice (win0_2.rect t)).set ↔ _
  rw [View.set_slice_whole, Rect.mem_set_unit]
  exact Iff.rfl

theorem mem_blk3 (t : Fin cfg0.N) (i : S8x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v2_1).slice (win0_3.rect t)).set ↔ _
  rw [View.set_slice_whole, Rect.mem_set_unit]
  exact Iff.rfl

/-- Every entry of the sums array is in the block some point writes back: its image's last tile. -/
theorem cover2 (i : S8x256x128.Idx) : ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 128 := (i 2).isLt
  refine ⟨⟨4 * (i 0).val + 3, last_lt _ hi0⟩, (flush0_2 _).mpr (by show (4 * (i 0).val + 3) % 4 = 3; omega), ?_⟩
  rw [mem_blk2]
  obtain ⟨e0, e1, e2⟩ := idx_out2 ⟨4 * (i 0).val + 3, last_lt _ hi0⟩
  intro a
  match a with
  | ⟨0, _⟩ => show win0_2.index _ (0 : Fin 3) * 1 ≤ (i 0).val ∧ (i 0).val < win0_2.index _ (0 : Fin 3) * 1 + 1; rw [e0]; show (4 * (i 0).val + 3) / 4 * 1 ≤ _ ∧ _ < (4 * (i 0).val + 3) / 4 * 1 + 1; omega
  | ⟨1, _⟩ => show win0_2.index _ (1 : Fin 3) * 256 ≤ (i 1).val ∧ (i 1).val < win0_2.index _ (1 : Fin 3) * 256 + 256; rw [e1]; omega
  | ⟨2, _⟩ => show win0_2.index _ (2 : Fin 3) * 128 ≤ (i 2).val ∧ (i 2).val < win0_2.index _ (2 : Fin 3) * 128 + 128; rw [e2]; omega

theorem cover3 (i : S8x8x128.Idx) : ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 128 := (i 2).isLt
  refine ⟨⟨4 * (i 0).val + 3, last_lt _ hi0⟩, (flush0_3 _).mpr (by show (4 * (i 0).val + 3) % 4 = 3; omega), ?_⟩
  rw [mem_blk3]
  obtain ⟨e0, e1, e2⟩ := idx_out3 ⟨4 * (i 0).val + 3, last_lt _ hi0⟩
  intro a
  match a with
  | ⟨0, _⟩ => show win0_3.index _ (0 : Fin 3) * 1 ≤ (i 0).val ∧ (i 0).val < win0_3.index _ (0 : Fin 3) * 1 + 1; rw [e0]; show (4 * (i 0).val + 3) / 4 * 1 ≤ _ ∧ _ < (4 * (i 0).val + 3) / 4 * 1 + 1; omega
  | ⟨1, _⟩ => show win0_3.index _ (1 : Fin 3) * 8 ≤ (i 1).val ∧ (i 1).val < win0_3.index _ (1 : Fin 3) * 8 + 8; rw [e1]; omega
  | ⟨2, _⟩ => show win0_3.index _ (2 : Fin 3) * 128 ≤ (i 2).val ∧ (i 2).val < win0_3.index _ (2 : Fin 3) * 128 + 128; rw [e2]; omega

/-- The sums array after the run. -/
theorem final2 (c : Dev nD) : (dats m 0 c).arrAt 2 cfg0.N = sumsArr m c :=
  (dats m 0 c).arrAt_eq_of_cover 2 _ (fun t hf => flushed2_eq m c t hf) (fun i => cover2 i)

/-- The statistics array after the run. -/
theorem final3 (c : Dev nD) : (dats m 0 c).arrAt 3 cfg0.N = statsArr m c :=
  (dats m 0 c).arrAt_eq_of_cover 3 _ (fun t hf => flushed3_eq m c t hf) (fun i => cover3 i)

end Cert.KernelIdeal.Arrays

end
-- ==== Proof.HostOut.lean ====
/-
  From the kernel's two output arrays to the three per-class arrays, read at an index.

  After the region the program adds the eight images' blocks together, keeps the first 19 of the 128 class columns,
  and transposes the sums to class x channel; row 0 of the summed statistics is the class norm sums, row 1 the class
  counts.  Over any contents of the two output arrays: entry (k, c) of the sums is the sum over the images b of
  A2[b, c, k], and entry k of a statistics row r is the sum over b of A3[b, r, k].
-/
import proofs.«426171_j42460046688734_3_alg».proof.Proof.Gen.KernelIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.HostOut

open Cert.KernelIdeal Cert.KernelIdeal.Facts₀
open Idealize.ShloMosaic Idealize.ShloMosaic.TcCoe Idealize.ShloMosaic.ValueIdx

/-- The class-by-channel sums, from the kernel's first output array. -/
def sumsOf (A2 : FVec Ideal S8x256x128 .f32) : FVec Ideal S19x256 .f32 :=
  transpose S19x256 [1, 0]
    (extractStridedSlice S256x19 ![0, 0]
      (Host.reduceAdd A2 (constant (F := Ideal) S_ .f32 0x00000000#32) reducesTo_S8x256x128_S256x128_d0 h_S_)
      slices_S256x128_S256x19_0_0)
    transposes_S256x19_S19x256_1_0

/-- The class norm sums: row 0 of the summed statistics, from the kernel's second output array. -/
def normsOf (A3 : FVec Ideal S8x8x128 .f32) : FVec Ideal S19 .f32 :=
  shapeCast _
    (extractStridedSlice S1x19 ![0, 0]
      (Host.reduceAdd A3 (constant (F := Ideal) S_ .f32 0x00000000#32) reducesTo_S8x8x128_S8x128_d0 h_S_)
      slices_S8x128_S1x19_0_0)
    shapeCasts_S1x19_S19

/-- The class counts: row 1 of the summed statistics. -/
def countsOf (A3 : FVec Ideal S8x8x128 .f32) : FVec Ideal S19 .f32 :=
  shapeCast _
    (extractStridedSlice S1x19 ![1, 0]
      (Host.reduceAdd A3 (constant (F := Ideal) S_ .f32 0x00000000#32) reducesTo_S8x8x128_S8x128_d0 h_S_)
      slices_S8x128_S1x19_1_0)
    shapeCasts_S1x19_S19

/-- Entry (k, c) of the sums: the images' blocks added at (c, k). -/
theorem sumsOf_apply (A2 : FVec Ideal S8x256x128 .f32) (k : Fin 19) (ch : Fin 256) :
    sumsOf A2 (ix2 k ch) = ∑ b : Fin 8, A2 (ix3 b ch (⟨k.val, by have := k.isLt; omega⟩ : Fin 128)) := by
  unfold sumsOf
  -- the transpose: entry (k, ch) of the result is entry (ch, k) of the sliced array
  refine (transpose_apply [1, 0] _ transposes_S256x19_S19x256_1_0 (ix2 k ch) (ix2 ch k) (fun b => match b with
    | ⟨0, _⟩ => rfl
    | ⟨1, _⟩ => rfl)).trans ?_
  -- the slice keeps columns 0..18 from offset (0, 0): entry (ch, k) is entry (ch, k) of the full 256 x 128 array
  refine (extractStridedSlice_apply ![0, 0] _ slices_S256x128_S256x19_0_0 (ix2 ch k)
    (ix2 ch (⟨k.val, by have := k.isLt; omega⟩ : Fin 128)) (fun a => match a with
    | ⟨0, _⟩ => by show ch.val = 0 + ch.val; omega
    | ⟨1, _⟩ => by show k.val = 0 + k.val; omega)).trans ?_
  -- the sum over the image axis, started from the constant 0
  simp only [Host.reduceAdd, Ideal.hostReduceAdd_def]
  rw [Ideal.hostReduceAdd_single reducesTo_S8x256x128_S256x128_d0 (by decide)]
  rw [constant_apply, Ideal.ofBits_zero_f32, zero_add]
  refine Finset.sum_congr rfl fun b _ => ?_
  exact congrArg A2 (funext fun a => Fin.ext (by match a with | ⟨0, _⟩ => rfl | ⟨1, _⟩ => rfl | ⟨2, _⟩ => rfl))

/-- Entry k of the norm sums: the images' statistics rows 0 added at k. -/
theorem normsOf_apply (A3 : FVec Ideal S8x8x128 .f32) (k : Fin 19) :
    normsOf A3 (ix1 k) = ∑ b : Fin 8, A3 (ix3 b (0 : Fin 8) (⟨k.val, by have := k.isLt; omega⟩ : Fin 128)) := by
  unfold normsOf
  -- dropping the unit axis: entry k of the row is entry (0, k) of the 1 x 19 slice (same row-major position)
  refine (shapeCast_apply _ shapeCasts_S1x19_S19 (ix1 k) (ix2 (0 : Fin 1) k) (by
    rewrite [Shape.rowMajor_val_two, Shape.rowMajor_val_one]; show 0 * 19 + k.val = k.val; omega)).trans ?_
  -- the slice from offset (0, 0): entry (0, k) is entry (0, k) of the summed 8 x 128 statistics
  refine (extractStridedSlice_apply ![0, 0] _ slices_S8x128_S1x19_0_0 (ix2 (0 : Fin 1) k)
    (ix2 (0 : Fin 8) (⟨k.val, by have := k.isLt; omega⟩ : Fin 128)) (fun a => match a with
    | ⟨0, _⟩ => rfl
    | ⟨1, _⟩ => by show k.val = 0 + k.val; omega)).trans ?_
  -- the sum over the image axis, started from the constant 0
  simp only [Host.reduceAdd, Ideal.hostReduceAdd_def]
  rw [Ideal.hostReduceAdd_single reducesTo_S8x8x128_S8x128_d0 (by decide)]
  rw [constant_apply, Ideal.ofBits_zero_f32, zero_add]
  refine Finset.sum_congr rfl fun b _ => ?_
  exact congrArg A3 (funext fun a => Fin.ext (by match a with | ⟨0, _⟩ => rfl | ⟨1, _⟩ => rfl | ⟨2, _⟩ => rfl))

/-- Entry k of the counts: the images' statistics rows 1 added at k. -/
theorem countsOf_apply (A3 : FVec Ideal S8x8x128 .f32) (k : Fin 19) :
    countsOf A3 (ix1 k) = ∑ b : Fin 8, A3 (ix3 b (1 : Fin 8) (⟨k.val, by have := k.isLt; omega⟩ : Fin 128)) := by
  unfold countsOf
  -- dropping the unit axis: entry k of the row is entry (0, k) of the 1 x 19 slice (same row-major position)
  refine (shapeCast_apply _ shapeCasts_S1x19_S19 (ix1 k) (ix2 (0 : Fin 1) k) (by
    rewrite [Shape.rowMajor_val_two, Shape.rowMajor_val_one]; show 0 * 19 + k.val = k.val; omega)).trans ?_
  -- the slice from offset (1, 0): entry (0, k) is entry (1, k) of the summed 8 x 128 statistics
  refine (extractStridedSlice_apply ![1, 0] _ slices_S8x128_S1x19_1_0 (ix2 (0 : Fin 1) k)
    (ix2 (1 : Fin 8) (⟨k.val, by have := k.isLt; omega⟩ : Fin 128)) (fun a => match a with
    | ⟨0, _⟩ => rfl
    | ⟨1, _⟩ => by show k.val = 0 + k.val; omega)).trans ?_
  -- the sum over the image axis, started from the constant 0
  simp only [Host.reduceAdd, Ideal.hostReduceAdd_def]
  rw [Ideal.hostReduceAdd_single reducesTo_S8x8x128_S8x128_d0 (by decide)]
  rw [constant_apply, Ideal.ofBits_zero_f32, zero_add]
  refine Finset.sum_congr rfl fun b _ => ?_
  exact congrArg A3 (funext fun a => Fin.ext (by match a with | ⟨0, _⟩ => rfl | ⟨1, _⟩ => rfl | ⟨2, _⟩ => rfl))

end Cert.KernelIdeal.HostOut

end
-- ==== Proof.KernelRun.lean ====
/-
  The kernel program's run, with its results named.

  After the region the program's host lines turn the two output arrays into the three per-class arrays and apply the
  shared tail to them.  So each result buffer ends holding the tail of `sumsOf` / `normsOf` / `countsOf` of the
  arrays the region leaves, and the arguments end unchanged.
-/
import proofs.«426171_j42460046688734_3_alg».proof.Proof.Arrays
import proofs.«426171_j42460046688734_3_alg».proof.Proof.HostOut
import proofs.«426171_j42460046688734_3_alg».proof.Proof.Spec
import Idealize.ShloMosaic.Lib.StableHlo.Run

set_option maxRecDepth 16384

noncomputable section

namespace Cert.KernelIdeal.KernelRun

open Cert.KernelIdeal Cert.KernelIdeal.Gen Cert.KernelIdeal.Arrays Cert.KernelIdeal.HostOut Cert.SegMean
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

set_option maxHeartbeats 4000000 in
/-- The first result after the host tail: the class means of the summed output arrays. -/
theorem tail_means (c : Dev nD) :
    Pipeline.afterTail₀ cfgs (dats m) 0 (V0 m) [hostOps1, hostOps1_1, hostOps1_2, hostOps1_3] c main_v19
      = meansTail (sumsOf ((dats m 0 c).arrAt 2 cfg0.N)) (countsOf ((dats m 0 c).arrAt 3 cfg0.N)) := by
  have e2 : Pipeline.withArrays (cfgs 0).spec c (V0 m c) (fun w => (dats m 0 c).arrAt w (cfgs 0).N) (Proc.devRef .tc main_v2_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c _ _ 3
  unfold Pipeline.afterTail₀
  simp only [hostOps1, hostOps1_1, hostOps1_2, hostOps1_3, List.flatten_cons, List.flatten_nil, List.append_nil, List.cons_append, List.nil_append]
  after_results_simp
  rw [e2, e3]
  simp only [TRef.ofBuf, TRef.toBuf, cast_eq]
  rfl

set_option maxHeartbeats 4000000 in
/-- The second result after the host tail: the class mean norms of the summed statistics. -/
theorem tail_norms (c : Dev nD) :
    Pipeline.afterTail₀ cfgs (dats m) 0 (V0 m) [hostOps1, hostOps1_1, hostOps1_2, hostOps1_3] c main_v21
      = normTail (normsOf ((dats m 0 c).arrAt 3 cfg0.N)) (countsOf ((dats m 0 c).arrAt 3 cfg0.N)) := by
  have e3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c _ _ 3
  unfold Pipeline.afterTail₀
  simp only [hostOps1, hostOps1_1, hostOps1_2, hostOps1_3, List.flatten_cons, List.flatten_nil, List.append_nil, List.cons_append, List.nil_append]
  after_results_simp
  rw [e3]
  simp only [TRef.ofBuf, TRef.toBuf, cast_eq]
  rfl

/-- The kernel program runs, its two results end at the tails of the per-class arrays of the output arrays, and its
    arguments end unchanged. -/
theorem run : θ_run defs (onTc (τ := τ) (main (F := Ideal))) ⟨m, fun _ => 0, ρ⟩ fun r => ∀ c : Dev nD,
      r.2.mem ((c.tc : Thread nD τ).loc main_v19) = meansTail (sumsOf (sumsArr m c)) (countsOf (statsArr m c))
      ∧ r.2.mem ((c.tc : Thread nD τ).loc main_v21) = normTail (normsOf (statsArr m c)) (countsOf (statsArr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v19 (Pipeline.mem_restRefs_of main_v19 (by decide) (by decide))).trans
        ((tail_means m c).trans (by rw [final2, final3])),
      ((h c).2 main_v21 (Pipeline.mem_restRefs_of main_v21 (by decide) (by decide))).trans
        ((tail_norms m c).trans (by rw [final3])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.TileValue.lean ====
/-
  One tile's arithmetic, read at an index over the extended reals.

  A tile is a 256 x 8192 block x of features (channel by pixel) and the 8192 label words s of its pixels.  The body
  builds the 8192 x 128 table whose entry (t, k) is 1 when label s t is k and 0 otherwise, and multiplies it from the
  left by x stacked on eight more rows: the pixel norms, a row of ones, six rows of zeros.  So entry (c, k) of the
  product is the sum of x c t over the tile's pixels labelled k, row 256 the sum of their norms, row 257 their
  number.  The second product, of (x - x) with the same table, is zero because every entry of x is a real number.
-/
import proofs.«426171_j42460046688734_3_alg».proof.Proof.Gen.KernelIdeal.Skeleton
import proofs.«426171_j42460046688734_3_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.TileValue

open Cert.KernelIdeal Cert.KernelIdeal.Gen
open Idealize.ShloMosaic Idealize.ShloMosaic.TcCoe Idealize.ShloMosaic.ValueIdx

/-! ## Words -/

/-- The word of a number below 128 reads, signed, as that number. -/
theorem toInt_ofNat_small (k : Nat) (hk : k < 128) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A 32-bit word is the word of a number below 128 exactly when it reads, signed, as that number. -/
theorem word_eq_ofNat_iff (s : BitVec 32) (k : Nat) (hk : k < 128) : s = BitVec.ofNat 32 k ↔ s.toInt = (k : ℤ) := by
  constructor
  · rintro rfl; exact toInt_ofNat_small k hk
  · intro h; exact BitVec.eq_of_toInt_eq (h.trans (toInt_ofNat_small k hk).symm)

/-- The comparison bit of two words, widened and converted, is 1 when they are equal and 0 otherwise. -/
theorem onehot_word (s w : BitVec 32) :
    ((((IntOp.cmpi .eq s w).setWidth 32).toInt : ℝ) : EReal) = if s = w then 1 else 0 := by
  have hc : IntOp.cmpi .eq s w = BitVec.ofBool (s == w) := rfl
  rw [hc]
  by_cases h : s = w
  · have h1 : (BitVec.setWidth 32 (BitVec.ofBool true)).toInt = 1 := by decide
    rw [if_pos h, beq_iff_eq.mpr h, h1, Int.cast_one, EReal.coe_one]
  · have h0 : (BitVec.setWidth 32 (BitVec.ofBool false)).toInt = 0 := by decide
    rw [if_neg h, beq_eq_false_iff_ne.mpr h, h0, Int.cast_zero, EReal.coe_zero]

/-! ## The one-hot table -/

/-- The label column broadcast along the classes reads the label of its row. -/
theorem labelBc_apply (v : IVec S1x1x8192 32) (h1 : S1x1x8192.ShapeCasts S8192) (h2 : S8192.ShapeCasts S8192x1)
    (h3 : S8192x1.Broadcasts S8192x128) (t : Fin 8192) (k : Fin 128) :
    broadcastTo S8192x128 (shapeCast S8192x1 (shapeCast S8192 v h1) h2) h3 (ix2 t k) = v (ix3 (0 : Fin 1) (0 : Fin 1) t) := by
  refine (broadcastTo_apply _ h3 (ix2 t k) (ix2 t (0 : Fin 1)) fun ax => ?_).trans ?_
  · match ax with
    | ⟨0, _⟩ => rfl
    | ⟨1, _⟩ => rfl
  refine (shapeCast_apply _ h2 (ix2 t (0 : Fin 1)) (ix1 t) ?_).trans ?_
  · rw [Shape.rowMajor_val_two, Shape.rowMajor_val_one]
    show t.val = t.val * 1 + 0
    omega
  refine shapeCast_apply _ h1 (ix1 t) (ix3 (0 : Fin 1) (0 : Fin 1) t) ?_
  rw [Shape.rowMajor_val_three, Shape.rowMajor_val_one]
  show (0 * 1 + 0) * 8192 + t.val = t.val
  omega

/-- The class numbers broadcast along the pixels read the word of the column's number. -/
theorem classBc_apply (h1 : S1x128.Iotas .tc 32 [1]) (h2 : S1x128.Broadcasts S8192x128) (t : Fin 8192) (k : Fin 128) :
    broadcastTo S8192x128 (iota .tc S1x128 32 [1] h1) h2 (ix2 t k) = BitVec.ofNat 32 k.val := by
  refine (broadcastTo_1b_ab_apply _ h2 t k).trans ?_
  exact iota_single_apply .tc S1x128 32 1 h1 (ix2 (0 : Fin 1) k)

/-- Entry (t, k) of the table: 1 when the label of pixel t is k, else 0. -/
theorem pay7_apply (x1 : Vec Ideal S1x1x8192 .i32) (t : Fin 8192) (k : Fin 128) :
    k0_pay7 (F := Ideal) x1 (ix2 t k)
      = if (x1 (ix3 (0 : Fin 1) (0 : Fin 1) t) : BitVec 32).toInt = (k.val : ℤ) then (1 : EReal) else 0 := by
  unfold k0_pay7
  rw [truncf_apply, sitofp_apply, extui_apply]
  show ((((IntOp.cmpi .eq (broadcastTo S8192x128 _ _ (ix2 t k)) (broadcastTo S8192x128 _ _ (ix2 t k))).setWidth 32).toInt : ℝ) : EReal) = _
  rw [labelBc_apply, classBc_apply, onehot_word]
  exact if_congr (word_eq_ofNat_iff _ k.val k.isLt) rfl rfl

/-! ## The two products, read at an index

The dimension numbers contract the left operand's columns with the right operand's rows.  Each operand index is read
one coordinate at a time, then the sum over the contraction index is carried to a sum over the 8192 pixels. -/

theorem lhs_D264_0 (i : S264x128.Idx) (q : dot_S264x8192_S8192x128_S264x128_1_0_0_1_n_n.contr.Idx) :
    (dot_S264x8192_S8192x128_S264x128_1_0_0_1_n_n.lhsIdx i q 0).val = (i 0).val := by
  unfold DotDims.lhsIdx
  rw [dif_neg (show ¬(0 : Fin S264x8192.rank) ∈ dot_S264x8192_S8192x128_S264x128_1_0_0_1_n_n.lhsBatch by decide),
    dif_pos (show (0 : Fin S264x8192.rank) ∈ dot_S264x8192_S8192x128_S264x128_1_0_0_1_n_n.lhsNonContracting by decide)]
  rfl
theorem lhs_D264_1 (i : S264x128.Idx) (q : dot_S264x8192_S8192x128_S264x128_1_0_0_1_n_n.contr.Idx) :
    (dot_S264x8192_S8192x128_S264x128_1_0_0_1_n_n.lhsIdx i q 1).val = (q ⟨0, by decide⟩).val :=
  dot_S264x8192_S8192x128_S264x128_1_0_0_1_n_n.lhsIdx_val_of_single rfl i q
theorem rhs_D264_0 (i : S264x128.Idx) (q : dot_S264x8192_S8192x128_S264x128_1_0_0_1_n_n.contr.Idx) :
    (dot_S264x8192_S8192x128_S264x128_1_0_0_1_n_n.rhsIdx i q 0).val = (q ⟨0, by decide⟩).val :=
  dot_S264x8192_S8192x128_S264x128_1_0_0_1_n_n.rhsIdx_val_of_single rfl i q
theorem rhs_D264_1 (i : S264x128.Idx) (q : dot_S264x8192_S8192x128_S264x128_1_0_0_1_n_n.contr.Idx) :
    (dot_S264x8192_S8192x128_S264x128_1_0_0_1_n_n.rhsIdx i q 1).val = (i 1).val := by
  unfold DotDims.rhsIdx
  rw [dif_neg (show ¬(1 : Fin S8192x128.rank) ∈ dot_S264x8192_S8192x128_S264x128_1_0_0_1_n_n.rhsBatch by decide),
    dif_pos (show (1 : Fin S8192x128.rank) ∈ dot_S264x8192_S8192x128_S264x128_1_0_0_1_n_n.rhsNonContracting by decide)]
  rfl

/-- The stacked product into a zero accumulator: entry (r, k) is the sum over the pixels of left (r, t) times right (t, k). -/
theorem mm264_apply (L : FVec Ideal S264x8192 .bf16) (R : FVec Ideal S8192x128 .bf16) (r : Fin 264) (k : Fin 128) :
    matmul dot_S264x8192_S8192x128_S264x128_1_0_0_1_n_n none L R (constant (F := Ideal) S264x128 .f32 0x00000000#32) (ix2 r k)
      = ∑ t : Fin 8192, L (ix2 r t) * R (ix2 t k) := by
  simp only [matmul]
  rw [Ideal.matmul_constant_zero_apply,
    ← Equiv.sum_comp (contrEquiv1 dot_S264x8192_S8192x128_S264x128_1_0_0_1_n_n 8192 rfl rfl).symm]
  refine Finset.sum_congr rfl fun t _ => ?_
  have hk := contrEquiv1_symm_val dot_S264x8192_S8192x128_S264x128_1_0_0_1_n_n 8192 rfl rfl t
  have el : dot_S264x8192_S8192x128_S264x128_1_0_0_1_n_n.lhsIdx (ix2 r k)
      ((contrEquiv1 dot_S264x8192_S8192x128_S264x128_1_0_0_1_n_n 8192 rfl rfl).symm t) = ix2 r t :=
    funext fun a => Fin.ext (by
      match a with
      | ⟨0, _⟩ => exact lhs_D264_0 _ _
      | ⟨1, _⟩ => exact (lhs_D264_1 _ _).trans hk)
  have er : dot_S264x8192_S8192x128_S264x128_1_0_0_1_n_n.rhsIdx (ix2 r k)
      ((contrEquiv1 dot_S264x8192_S8192x128_S264x128_1_0_0_1_n_n 8192 rfl rfl).symm t) = ix2 t k :=
    funext fun a => Fin.ext (by
      match a with
      | ⟨0, _⟩ => exact (rhs_D264_0 _ _).trans hk
      | ⟨1, _⟩ => exact rhs_D264_1 _ _)
  rw [el, er]

theorem lhs_D256_0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide),
    dif_pos (show (0 : Fin S256x8192.rank) ∈ dot_S256x8192_S8192x128_S256x128_1_0_0_1_n_n.lhsNonContracting by decide)]
  rfl
theorem lhs_D256_1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q
theorem rhs_D256_0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q
theorem rhs_D256_1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide),
    dif_pos (show (1 : Fin S8192x128.rank) ∈ dot_S256x8192_S8192x128_S256x128_1_0_0_1_n_n.rhsNonContracting by decide)]
  rfl

/-- The second product into a zero accumulator, likewise. -/
theorem mm256_apply (L : FVec Ideal S256x8192 .bf16) (R : FVec Ideal S8192x128 .bf16) (c : Fin 256) (k : Fin 128) :
    matmul dot_S256x8192_S8192x128_S256x128_1_0_0_1_n_n none L R (constant (F := Ideal) S256x128 .f32 0x00000000#32) (ix2 c k)
      = ∑ t : Fin 8192, L (ix2 c t) * R (ix2 t k) := by
  simp only [matmul]
  rw [Ideal.matmul_constant_zero_apply,
    ← Equiv.sum_comp (contrEquiv1 dot_S256x8192_S8192x128_S256x128_1_0_0_1_n_n 8192 rfl rfl).symm]
  refine Finset.sum_congr rfl fun t _ => ?_
  have hk := contrEquiv1_symm_val dot_S256x8192_S8192x128_S256x128_1_0_0_1_n_n 8192 rfl rfl t
  have el : dot_S256x8192_S8192x128_S256x128_1_0_0_1_n_n.lhsIdx (ix2 c k)
      ((contrEquiv1 dot_S256x8192_S8192x128_S256x128_1_0_0_1_n_n 8192 rfl rfl).symm t) = ix2 c t :=
    funext fun a => Fin.ext (by
      match a with
      | ⟨0, _⟩ => exact lhs_D256_0 _ _
      | ⟨1, _⟩ => exact (lhs_D256_1 _ _).trans hk)
  have er : dot_S256x8192_S8192x128_S256x128_1_0_0_1_n_n.rhsIdx (ix2 c k)
      ((contrEquiv1 dot_S256x8192_S8192x128_S256x128_1_0_0_1_n_n 8192 rfl rfl).symm t) = ix2 t k :=
    funext fun a => Fin.ext (by
      match a with
      | ⟨0, _⟩ => exact (rhs_D256_0 _ _).trans hk
      | ⟨1, _⟩ => exact rhs_D256_1 _ _)
  rw [el, er]

/-! ## The stacked left operand -/

/-- The feature block with its leading unit axis dropped. -/
theorem pay6_apply (x0 : Vec Ideal S1x256x8192 .f32) (c : Fin 256) (t : Fin 8192) :
    k0_pay6 (F := Ideal) x0 (ix2 c t) = x0 (ix3 (0 : Fin 1) c t) := by
  unfold k0_pay6
  exact shapeCast_1ab_ab_apply _ _ c t

/-- The column sums of the squares: at pixel t, the sum over the channels of the squared feature. -/
theorem sqsum_apply (X : FVec Ideal S256x8192 .f32) (h : S256x8192.Reduces [0] S8192) (hφ : FKind.Formats .f32)
    (hacc : (0x00000000#32 : BitVec 32) = 0x00000000#32) (t : Fin 8192) :
    multiReduction (F := Ideal) .add [0] S8192 (mulf X X) 0x00000000#32 h hφ hacc (ix1 t)
      = ∑ c : Fin 256, X (ix2 c t) * X (ix2 c t) := by
  refine (Ideal.multiReduction_add_single (mulf X X) 0x00000000#32 h hφ hacc (ix1 t)).trans ?_
  refine Finset.sum_congr rfl fun c _ => ?_
  have e : h.lift (ix1 t) c = ix2 c t := funext fun a => Fin.ext (by
    match a with
    | ⟨0, _⟩ => rfl
    | ⟨1, _⟩ => rfl)
  rw [e]
  rfl

/-- The norms row: at pixel t, the square root of the column sum of the squares. -/
theorem normRow_apply (X : FVec Ideal S256x8192 .f32) (h : S256x8192.Reduces [0] S8192) (hφ : FKind.Formats .f32)
    (hacc : (0x00000000#32 : BitVec 32) = 0x00000000#32) (h2 : S8192.ShapeCasts S1x8192) (t : Fin 8192) :
    sqrt (F := Ideal) (shapeCast S1x8192 (multiReduction (F := Ideal) .add [0] S8192 (mulf X X) 0x00000000#32 h hφ hacc) h2) (ix2 (0 : Fin 1) t)
      = Ideal.sqrt (∑ c : Fin 256, X (ix2 c t) * X (ix2 c t)) := by
  show Ideal.sqrt (shapeCast S1x8192 _ h2 (ix2 (0 : Fin 1) t)) = _
  rw [shapeCast_a_1a_apply, sqsum_apply]

/-- The eight extra rows: row 0 is the first piece's one row. -/
theorem extra_row0 (P Q : FVec Ideal S1x8192 .f32) (Z : FVec Ideal S6x8192 .f32)
    (h : Shape.Concatenates [S1x8192, S1x8192, S6x8192] S8x8192 0) (t : Fin 8192) :
    concatenate S8x8192 0 [⟨S1x8192, P⟩, ⟨S1x8192, Q⟩, ⟨S6x8192, Z⟩] h (ix2 (0 : Fin 8) t) = P (ix2 (0 : Fin 1) t) := by
  refine concatenate_apply_piece (0 : Fin S8x8192.rank) [⟨S1x8192, P⟩, ⟨S1x8192, Q⟩, ⟨S6x8192, Z⟩] h (ix2 (0 : Fin 8) t) 0 (Nat.succ_pos _) S1x8192 P rfl rfl 0 rfl
    (ix2 (0 : Fin 1) t) (fun b hb => ?_) rfl
  match b with
  | ⟨0, _⟩ => exact absurd rfl hb
  | ⟨1, _⟩ => rfl

/-- Row 1 is the second piece's one row. -/
theorem extra_row1 (P Q : FVec Ideal S1x8192 .f32) (Z : FVec Ideal S6x8192 .f32)
    (h : Shape.Concatenates [S1x8192, S1x8192, S6x8192] S8x8192 0) (t : Fin 8192) :
    concatenate S8x8192 0 [⟨S1x8192, P⟩, ⟨S1x8192, Q⟩, ⟨S6x8192, Z⟩] h (ix2 (1 : Fin 8) t) = Q (ix2 (0 : Fin 1) t) := by
  refine concatenate_apply_piece (0 : Fin S8x8192.rank) [⟨S1x8192, P⟩, ⟨S1x8192, Q⟩, ⟨S6x8192, Z⟩] h (ix2 (1 : Fin 8) t) 1 (Nat.succ_lt_succ (Nat.succ_pos _)) S1x8192 Q rfl rfl 1 rfl
    (ix2 (0 : Fin 1) t) (fun b hb => ?_) rfl
  match b with
  | ⟨0, _⟩ => exact absurd rfl hb
  | ⟨1, _⟩ => rfl

/-- The stack: its first 256 rows are the first piece's. -/
theorem stack_top (A : FVec Ideal S256x8192 .bf16) (B : FVec Ideal S8x8192 .bf16)
    (h : Shape.Concatenates [S256x8192, S8x8192] S264x8192 0) (c : Fin 256) (r : Fin 264) (hr : r.val = c.val) (t : Fin 8192) :
    concatenate S264x8192 0 [⟨S256x8192, A⟩, ⟨S8x8192, B⟩] h (ix2 r t) = A (ix2 c t) := by
  refine concatenate_pair_apply_left (0 : Fin S264x8192.rank) A B h (ix2 r t) rfl (ix2 c t) fun b => ?_
  match b with
  | ⟨0, _⟩ => exact hr.symm
  | ⟨1, _⟩ => rfl

/-- Its last eight rows are the second piece's. -/
theorem stack_bot (A : FVec Ideal S256x8192 .bf16) (B : FVec Ideal S8x8192 .bf16)
    (h : Shape.Concatenates [S256x8192, S8x8192] S264x8192 0) (e : Fin 8) (r : Fin 264) (hr : r.val = 256 + e.val) (t : Fin 8192) :
    concatenate S264x8192 0 [⟨S256x8192, A⟩, ⟨S8x8192, B⟩] h (ix2 r t) = B (ix2 e t) := by
  refine concatenate_pair_apply_right (0 : Fin S264x8192.rank) A B h (ix2 r t) rfl rfl (ix2 e t) (fun b hb => ?_) ?_
  · match b with
    | ⟨0, _⟩ => exact absurd rfl hb
    | ⟨1, _⟩ => rfl
  · show e.val + 256 = r.val
    omega

/-! ## The first product's rows -/

/-- A feature row of the first product: at (c, k), the sum of channel c over the tile's pixels labelled k. -/
theorem pay8_feat_apply (x0 : Vec Ideal S1x256x8192 .f32) (x1 : Vec Ideal S1x1x8192 .i32) (c : Fin 256) (r : Fin 264)
    (hr : r.val = c.val) (k : Fin 128) :
    k0_pay8 (F := Ideal) x0 x1 (ix2 r k)
      = ∑ t : Fin 8192, if (x1 (ix3 (0 : Fin 1) (0 : Fin 1) t) : BitVec 32).toInt = (k.val : ℤ) then x0 (ix3 (0 : Fin 1) c t) else 0 := by
  unfold k0_pay8
  refine (mm264_apply _ _ r k).trans ?_
  refine Finset.sum_congr rfl fun t _ => ?_
  rw [stack_top _ _ _ c r hr t, truncf_apply, pay6_apply, pay7_apply, mul_ite, mul_one, mul_zero]

/-- Row 256 of the first product: at k, the sum of the pixel norms over the tile's pixels labelled k. -/
theorem pay8_norm_apply (x0 : Vec Ideal S1x256x8192 .f32) (x1 : Vec Ideal S1x1x8192 .i32) (r : Fin 264)
    (hr : r.val = 256) (k : Fin 128) :
    k0_pay8 (F := Ideal) x0 x1 (ix2 r k)
      = ∑ t : Fin 8192, if (x1 (ix3 (0 : Fin 1) (0 : Fin 1) t) : BitVec 32).toInt = (k.val : ℤ)
          then Ideal.sqrt (∑ c : Fin 256, x0 (ix3 (0 : Fin 1) c t) * x0 (ix3 (0 : Fin 1) c t)) else 0 := by
  unfold k0_pay8
  refine (mm264_apply _ _ r k).trans ?_
  refine Finset.sum_congr rfl fun t _ => ?_
  rw [stack_bot _ _ _ (0 : Fin 8) r (hr.trans rfl) t, truncf_apply, extra_row0, normRow_apply, pay7_apply, mul_ite, mul_one,
    mul_zero]
  simp only [pay6_apply]

/-- Row 257 of the first product: at k, the number of the tile's pixels labelled k. -/
theorem pay8_count_apply (x0 : Vec Ideal S1x256x8192 .f32) (x1 : Vec Ideal S1x1x8192 .i32) (r : Fin 264)
    (hr : r.val = 257) (k : Fin 128) :
    k0_pay8 (F := Ideal) x0 x1 (ix2 r k)
      = ∑ t : Fin 8192, if (x1 (ix3 (0 : Fin 1) (0 : Fin 1) t) : BitVec 32).toInt = (k.val : ℤ) then (1 : EReal) else 0 := by
  unfold k0_pay8
  refine (mm264_apply _ _ r k).trans ?_
  refine Finset.sum_congr rfl fun t _ => ?_
  rw [stack_bot _ _ _ (1 : Fin 8) r (hr.trans rfl) t, truncf_apply, extra_row1, broadcast_apply, pay7_apply]
  show Ideal.ofBits .f32 0x3F800000#32 * _ = _
  rw [show Ideal.ofBits .f32 0x3F800000#32 = 1 from IdealRules.sign_bit.ideal_onePat .f32, one_mul]

/-- The second product is zero: its left operand is x - x, and every entry of x is a real number. -/
theorem lowPart_zero (x0 : Vec Ideal S1x256x8192 .f32) (R : FVec Ideal S8192x128 .bf16)
    (hfin : ∀ j, ∃ r : ℝ, x0 j = (r : EReal)) (hb : FTy.bits .bf16 < FTy.bits .f32) (c : Fin 256) (k : Fin 128) :
    matmul dot_S256x8192_S8192x128_S256x128_1_0_0_1_n_n none
        (truncf .bf16 (subf (k0_pay6 (F := Ideal) x0) (k0_pay6 (F := Ideal) x0)) hb) R
        (constant (F := Ideal) S256x128 .f32 0x00000000#32) (ix2 c k) = 0 := by
  refine (mm256_apply _ _ c k).trans ?_
  refine Finset.sum_eq_zero fun t _ => ?_
  rw [truncf_apply, subf_apply, pay6_apply]
  obtain ⟨r, hr⟩ := hfin (ix3 (0 : Fin 1) c t)
  rw [hr, ← EReal.coe_sub, sub_self, EReal.coe_zero, zero_mul]

/-! ## The payloads at an index -/

/-- The sums accumulator after a tile: what it held plus, at (c, k), the sum of channel c over the tile's pixels
    labelled k.  Needs every feature of the tile to be a real number (the split-off low part x - x is then zero). -/
theorem pay10_apply (x0 : Vec Ideal S1x256x8192 .f32) (x1 : Vec Ideal S1x1x8192 .i32) (acc : Vec Ideal S256x128 .f32)
    (hfin : ∀ j, ∃ r : ℝ, x0 j = (r : EReal)) (c : Fin 256) (k : Fin 128) :
    k0_pay10 (F := Ideal) x0 x1 acc (ix2 c k)
      = acc (ix2 c k) + ∑ t : Fin 8192, if (x1 (ix3 (0 : Fin 1) (0 : Fin 1) t) : BitVec 32).toInt = (k.val : ℤ) then x0 (ix3 (0 : Fin 1) c t) else 0 := by
  unfold k0_pay10
  rw [shapeCast_self, addf_apply, addf_apply, lowPart_zero x0 _ hfin, add_zero,
    slice2_axis0_apply 0 _ _ c k (⟨c.val, by omega⟩ : Fin 264) (Nat.zero_add _).symm,
    pay8_feat_apply x0 x1 c ⟨c.val, by omega⟩ rfl k]

/-- Row 0 of the tile's statistics: at k, the sum of the pixel norms over the tile's pixels labelled k. -/
theorem pay9_norm_apply (x0 : Vec Ideal S1x256x8192 .f32) (x1 : Vec Ideal S1x1x8192 .i32) (k : Fin 128) :
    k0_pay9 (F := Ideal) x0 x1 (ix2 (0 : Fin 8) k)
      = ∑ t : Fin 8192, if (x1 (ix3 (0 : Fin 1) (0 : Fin 1) t) : BitVec 32).toInt = (k.val : ℤ)
          then Ideal.sqrt (∑ c : Fin 256, x0 (ix3 (0 : Fin 1) c t) * x0 (ix3 (0 : Fin 1) c t)) else 0 := by
  unfold k0_pay9
  refine (slice2_axis0_apply 256 _ _ (0 : Fin 8) k (⟨256, by decide⟩ : Fin 264) rfl).trans ?_
  exact pay8_norm_apply x0 x1 ⟨256, by decide⟩ rfl k

/-- Row 1 of the tile's statistics: at k, the number of the tile's pixels labelled k. -/
theorem pay9_count_apply (x0 : Vec Ideal S1x256x8192 .f32) (x1 : Vec Ideal S1x1x8192 .i32) (k : Fin 128) :
    k0_pay9 (F := Ideal) x0 x1 (ix2 (1 : Fin 8) k)
      = ∑ t : Fin 8192, if (x1 (ix3 (0 : Fin 1) (0 : Fin 1) t) : BitVec 32).toInt = (k.val : ℤ) then (1 : EReal) else 0 := by
  unfold k0_pay9
  refine (slice2_axis0_apply 256 _ _ (1 : Fin 8) k (⟨257, by decide⟩ : Fin 264) rfl).trans ?_
  exact pay8_count_apply x0 x1 ⟨257, by decide⟩ rfl k

/-- The value the sums accumulator is reset to is zero everywhere. -/
theorem pay4_apply (j : S256x128.Idx) : k0_pay4 (F := Ideal) j = 0 := by
  unfold k0_pay4
  rw [shapeCast_self]
  exact Ideal.ofBits_zero_f32

/-- The value the statistics accumulator is reset to is zero everywhere. -/
theorem pay5_apply (j : S8x128.Idx) : k0_pay5 (F := Ideal) j = 0 := by
  unfold k0_pay5
  rw [shapeCast_self]
  exact Ideal.ofBits_zero_f32

/-- The statistics accumulator after a tile: what it held plus the tile's statistics. -/
theorem pay1_apply (v : FVec Ideal S8x128 .f32) (acc : Vec Ideal S8x128 .f32) (j : S8x128.Idx) :
    k0_pay1 (F := Ideal) v acc j = acc j + v j := by
  unfold k0_pay1
  rw [shapeCast_self]
  rfl

/-- Copying the sums accumulator out to the image's block only adds a leading unit axis. -/
theorem pay2_apply (v : Vec Ideal S256x128 .f32) (c : Fin 256) (k : Fin 128) :
    k0_pay2 (F := Ideal) v (ix3 (0 : Fin 1) c k) = v (ix2 c k) := by
  unfold k0_pay2
  refine shapeCast_apply _ _ _ _ ?_
  rw [Shape.rowMajor_val_two, Shape.rowMajor_val_three]
  simp

/-- Copying the statistics accumulator out likewise. -/
theorem pay3_apply (v : Vec Ideal S8x128 .f32) (r : Fin 8) (k : Fin 128) :
    k0_pay3 (F := Ideal) v (ix3 (0 : Fin 1) r k) = v (ix2 r k) := by
  unfold k0_pay3
  refine shapeCast_apply _ _ _ _ ?_
  rw [Shape.rowMajor_val_two, Shape.rowMajor_val_three]
  simp

end Cert.KernelIdeal.TileValue

end
-- ==== Proof.HostIn.lean ====
/-
  What the kernel's two inputs hold, read at an index.

  Before the region the program only re-lays its arguments: the features [8, 256, 128, 256] as [8, 256, 32768] (pixel
  q = 256 h + w of an image on the last axis) and the labels [8, 128, 256] as [8, 1, 32768].  The grid's point n works
  on image n / 4 and pixel tile n % 4: its feature block is channels x the pixels 8192 (n % 4) .. 8192 (n % 4) + 8191
  of that image, its label block the labels of those pixels.
-/
import proofs.«426171_j42460046688734_3_alg».proof.Proof.Gen.KernelIdeal.Frame
import proofs.«426171_j42460046688734_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.HostIn

open Cert.KernelIdeal Cert.KernelIdeal.Gen Cert.SegMean
open Idealize.ShloMosaic Idealize.ShloMosaic.TcCoe Idealize.ShloMosaic.ValueIdx Idealize.SL.Sem

variable (m : (ℓ : Loc nD τ sig) → Buf (Elt Ideal) ℓ)

/-- The re-laid feature array the region finds, at (image, channel, pixel). -/
theorem V_feats (c : Dev nD) (b : Fin 8) (ch : Fin 256) (q : Fin 32768) :
    (V m c main_v0 : S8x256x32768.Idx → EReal) (ix3 b ch q) = feat (m ((c : Thread nD τ).loc main_arg0)) b ch q := by
  -- the array the region finds is the argument re-laid with the same row-major order
  have e : (V m c main_v0 : S8x256x32768.Idx → EReal)
      = shapeCast _ (m ((c : Thread nD τ).loc main_arg0)) shapeCasts_S8x256x128x256_S8x256x32768 := by
    show StableHlo.after hostOps0 (fun b => m (c, b)) (Proc.devRef .tc main_v0) = _
    after_results; rfl
  rw [e]
  unfold feat
  -- position (b 256 + ch) 32768 + q is position ((b 256 + ch) 128 + q / 256) 256 + q % 256
  exact shapeCast_apply _ _ (ix3 b ch q) (ix4 b ch (pixRow q) (pixCol q)) (by
    rw [Shape.rowMajor_val_four, Shape.rowMajor_val_three]
    show ((b.val * 256 + ch.val) * 128 + q.val / 256) * 256 + q.val % 256 = (b.val * 256 + ch.val) * 32768 + q.val
    omega)

/-- The re-laid label array the region finds, at (image, pixel). -/
theorem V_labels (c : Dev nD) (b : Fin 8) (q : Fin 32768) :
    (V m c main_v1 : S8x1x32768.Idx → BitVec 32) (ix3 b (0 : Fin 1) q) = label (m ((c : Thread nD τ).loc main_arg1)) b q := by
  have e : (V m c main_v1 : S8x1x32768.Idx → BitVec 32)
      = shapeCast _ (m ((c : Thread nD τ).loc main_arg1)) shapeCasts_S8x128x256_S8x1x32768 := by
    show StableHlo.after hostOps0 (fun b => m (c, b)) (Proc.devRef .tc main_v1) = _
    after_results; rfl
  rw [e]
  unfold label
  -- position (b 1 + 0) 32768 + q is position (b 128 + q / 256) 256 + q % 256
  exact shapeCast_apply _ _ (ix3 b (0 : Fin 1) q) (ix3 b (pixRow q) (pixCol q)) (by
    rw [Shape.rowMajor_val_three, Shape.rowMajor_val_three]
    show (b.val * 128 + q.val / 256) * 256 + q.val % 256 = (b.val * 1 + 0) * 32768 + q.val
    omega)

/-- The feature window's block index at point t is (t / 4, 0, t % 4): decided over the 32 points. -/
private theorem idx_facts0 : ∀ t : Fin cfg0.N, win0_0.index t (0 : Fin 3) = t.val / 4 ∧ win0_0.index t (1 : Fin 3) = 0
    ∧ win0_0.index t (2 : Fin 3) = t.val % 4 :=
  (by decide +kernel : ∀ t : Fin grid0.N, _)

/-- The label window's block index at point t is (t / 4, 0, t % 4) likewise. -/
private theorem idx_facts1 : ∀ t : Fin cfg0.N, win0_1.index t (0 : Fin 3) = t.val / 4 ∧ win0_1.index t (1 : Fin 3) = 0
    ∧ win0_1.index t (2 : Fin 3) = t.val % 4 :=
  (by decide +kernel : ∀ t : Fin grid0.N, _)

/-- The feature block of the tile at point n, at (channel, pixel of the tile). -/
theorem xblk_apply (c : Dev nD) (n : ℕ) (h : n < cfg0.N) (ch : Fin 256) (t : Fin 8192) :
    (iblk m c 0 ⟨n, h⟩ : S1x256x8192.Idx → EReal) (ix3 (0 : Fin 1) ch t)
      = feat (m ((c : Thread nD τ).loc main_arg0)) ⟨n / 4, by have := lt_of_lt_of_eq h (show cfg0.N = 32 from N_0); omega⟩ ch
          ⟨8192 * (n % 4) + t.val, by have := t.isLt; omega⟩ := by
  have e0 : win0_0.index ⟨n, h⟩ (0 : Fin 3) = n / 4 := (idx_facts0 ⟨n, h⟩).1
  have e1 : win0_0.index ⟨n, h⟩ (1 : Fin 3) = 0 := (idx_facts0 ⟨n, h⟩).2.1
  have e2 : win0_0.index ⟨n, h⟩ (2 : Fin 3) = n % 4 := (idx_facts0 ⟨n, h⟩).2.2
  show V m c main_v0 (((cfg0.win 0).blk ⟨n, h⟩).view.emb (ix3 (0 : Fin 1) ch t)) = _
  -- a coordinate of the block in the array is block index x block size + the coordinate inside the block
  have hi : ((cfg0.win 0).blk ⟨n, h⟩).view.emb (ix3 (0 : Fin 1) ch t)
      = ix3 ⟨n / 4, by have := lt_of_lt_of_eq h (show cfg0.N = 32 from N_0); omega⟩ ch
          ⟨8192 * (n % 4) + t.val, by have := t.isLt; omega⟩ := by
    funext a; apply Fin.ext
    match a with
    | ⟨0, _⟩ => show win0_0.index ⟨n, h⟩ (0 : Fin 3) * 1 + 1 * 0 = n / 4; omega
    | ⟨1, _⟩ => show win0_0.index ⟨n, h⟩ (1 : Fin 3) * 256 + 1 * ch.val = ch.val; omega
    | ⟨2, _⟩ => show win0_0.index ⟨n, h⟩ (2 : Fin 3) * 8192 + 1 * t.val = 8192 * (n % 4) + t.val; omega
  rw [hi]
  exact V_feats m c _ ch _

/-- The label block of the tile at point n, at a pixel of the tile. -/
theorem sblk_apply (c : Dev nD) (n : ℕ) (h : n < cfg0.N) (t : Fin 8192) :
    (iblk m c 1 ⟨n, h⟩ : S1x1x8192.Idx → BitVec 32) (ix3 (0 : Fin 1) (0 : Fin 1) t)
      = label (m ((c : Thread nD τ).loc main_arg1)) ⟨n / 4, by have := lt_of_lt_of_eq h (show cfg0.N = 32 from N_0); omega⟩
          ⟨8192 * (n % 4) + t.val, by have := t.isLt; omega⟩ := by
  have e0 : win0_1.index ⟨n, h⟩ (0 : Fin 3) = n / 4 := (idx_facts1 ⟨n, h⟩).1
  have e1 : win0_1.index ⟨n, h⟩ (1 : Fin 3) = 0 := (idx_facts1 ⟨n, h⟩).2.1
  have e2 : win0_1.index ⟨n, h⟩ (2 : Fin 3) = n % 4 := (idx_facts1 ⟨n, h⟩).2.2
  show V m c main_v1 (((cfg0.win 1).blk ⟨n, h⟩).view.emb (ix3 (0 : Fin 1) (0 : Fin 1) t)) = _
  have hi : ((cfg0.win 1).blk ⟨n, h⟩).view.emb (ix3 (0 : Fin 1) (0 : Fin 1) t)
      = ix3 ⟨n / 4, by have := lt_of_lt_of_eq h (show cfg0.N = 32 from N_0); omega⟩ (0 : Fin 1)
          ⟨8192 * (n % 4) + t.val, by have := t.isLt; omega⟩ := by
    funext a; apply Fin.ext
    match a with
    | ⟨0, _⟩ => show win0_1.index ⟨n, h⟩ (0 : Fin 3) * 1 + 1 * 0 = n / 4; omega
    | ⟨1, _⟩ => show win0_1.index ⟨n, h⟩ (1 : Fin 3) * 1 + 1 * 0 = 0; omega
    | ⟨2, _⟩ => show win0_1.index ⟨n, h⟩ (2 : Fin 3) * 8192 + 1 * t.val = 8192 * (n % 4) + t.val; omega
  rw [hi]
  exact V_labels m c _ _

end Cert.KernelIdeal.HostIn

end
-- ==== Proof.KernelValue.lean ====
/-
  The kernel's two output arrays in closed form.

  Image b's finished sums accumulator is zero plus the contributions of the image's four tiles; tile s contributes,
  at (c, k), the sum of channel c over the pixels 8192 s .. 8192 s + 8191 of the image that are labelled k.  The four
  tiles partition the image's 32768 pixels, so entry (b, c, k) of the first output array is the sum of channel c over
  all pixels of image b labelled k; rows 0 and 1 of the second array are, likewise, the sum of the pixel norms and
  the number of those pixels.  Every feature is a real number here, which the tile's arithmetic needs.
-/
import proofs.«426171_j42460046688734_3_alg».proof.Proof.Arrays
import proofs.«426171_j42460046688734_3_alg».proof.Proof.TileValue
import proofs.«426171_j42460046688734_3_alg».proof.Proof.HostIn
import proofs.«426171_j42460046688734_3_alg».proof.Proof.Spec
import Idealize.ShloMosaic.Lib.Pipeline.Value
import Idealize.ShloMosaic.Lib.ValueIdx

set_option maxRecDepth 16384

noncomputable section

namespace Cert.KernelIdeal.KernelValue

open Cert.KernelIdeal Cert.KernelIdeal.Gen Cert.KernelIdeal.Fold Cert.KernelIdeal.Arrays Cert.SegMean
open Idealize.ShloMosaic Idealize.ShloMosaic.TcCoe Idealize.ShloMosaic.ValueIdx Idealize.SL.Sem

variable (m : (ℓ : Loc nD τ sig) → Buf (Elt Ideal) ℓ)

/-! ## The four tiles of an image partition its pixels -/

/-- Tile s and pixel t of the tile name pixel 8192 s + t of the image: a bijection. -/
private def tileEquiv : Fin 4 × Fin 8192 ≃ Fin 32768 := finProdFinEquiv (m := 4) (n := 8192)

/-- A sum over an image's pixels, taken tile by tile.  T s is the contribution of tile s: the sum of the summand
    over the tile's pixels 8192 s .. 8192 s + 8191. -/
private theorem sum_tiles {β : Type} [AddCommMonoid β] (G : Fin 32768 → β) (T : ℕ → β)
    (hT : ∀ (s : ℕ) (_ : s < 4), T s = ∑ t : Fin 8192, G ⟨8192 * s + t.val, by have := t.isLt; omega⟩) :
    ∑ s ∈ Finset.range 4, T s = ∑ q : Fin 32768, G q := by
  rw [Finset.sum_range, Finset.sum_congr rfl (fun (s : Fin 4) _ => hT s.val s.isLt)]
  calc ∑ s : Fin 4, ∑ t : Fin 8192, G ⟨8192 * s.val + t.val, by have := t.isLt; have := s.isLt; omega⟩
      = ∑ p : Fin 4 × Fin 8192, G ⟨8192 * p.1.val + p.2.val, by have := p.2.isLt; have := p.1.isLt; omega⟩ :=
        (Fintype.sum_prod_type' (fun (s : Fin 4) (t : Fin 8192) =>
          G ⟨8192 * s.val + t.val, by have := t.isLt; have := s.isLt; omega⟩)).symm
    _ = ∑ q : Fin 32768, G q := Fintype.sum_equiv tileEquiv _ _ (fun p =>
        congrArg G (Fin.ext (by show 8192 * p.1.val + p.2.val = p.2.val + 8192 * p.1.val; omega)))

/-- Tile s of image b is worked at point 4 b + s, which names image (4 b + s) / 4 = b -/
private theorem tile_img (b : Fin 8) (s : ℕ) (hs : s < 4) (hb : (4 * b.val + s) / 4 < 8) :
    (⟨(4 * b.val + s) / 4, hb⟩ : Fin 8) = b := Fin.ext (by show (4 * b.val + s) / 4 = b.val; omega)

/-- and pixel tile (4 b + s) % 4 = s. -/
private theorem tile_pix (b : Fin 8) (s : ℕ) (hs : s < 4) (t : Fin 8192) (h1 : 8192 * ((4 * b.val + s) % 4) + t.val < 32768) :
    (⟨8192 * ((4 * b.val + s) % 4) + t.val, h1⟩ : Fin 32768) = ⟨8192 * s + t.val, by have := t.isLt; omega⟩ :=
  Fin.ext (by show 8192 * ((4 * b.val + s) % 4) + t.val = 8192 * s + t.val; omega)

/-- A fold depends on its first point and its length only, not on how the bound is proved. -/
private theorem accAt_congr {α : Type} {N : ℕ} (a : (n : ℕ) → n < N → α) (g : (n : ℕ) → n < N → α → α)
    (b j : ℕ) (h : b + j < N) (b' j' : ℕ) (h' : b' + j' < N) (eb : b = b') (ej : j = j') :
    Pipeline.accAt a g b j h = Pipeline.accAt a g b' j' h' := by
  subst eb; subst ej; rfl

/-! ## A tile's blocks, for tile s of image b -/

/-- The label block of tile s of image b holds the labels of the image's pixels 8192 s + t. -/
private theorem sblk_tile (c : Dev nD) (b : Fin 8) (s : ℕ) (hs : s < 4) (hn : 4 * b.val + s < cfg0.N) (t : Fin 8192) :
    ((sblk m c (4 * b.val + s) hn) (ix3 (0 : Fin 1) (0 : Fin 1) t) : BitVec 32)
      = label (m ((c : Thread nD τ).loc main_arg1)) b ⟨8192 * s + t.val, by have := t.isLt; omega⟩ := by
  have e := HostIn.sblk_apply m c _ hn t
  rw [tile_img b s hs, tile_pix b s hs t] at e
  exact e

/-- The feature block of tile s of image b holds the features of the image's pixels 8192 s + t. -/
private theorem xblk_tile (c : Dev nD) (b : Fin 8) (s : ℕ) (hs : s < 4) (hn : 4 * b.val + s < cfg0.N) (ch : Fin 256)
    (t : Fin 8192) :
    ((xblk m c (4 * b.val + s) hn) (ix3 (0 : Fin 1) ch t) : EReal)
      = feat (m ((c : Thread nD τ).loc main_arg0)) b ch ⟨8192 * s + t.val, by have := t.isLt; omega⟩ := by
  have e := HostIn.xblk_apply m c _ hn ch t
  rw [tile_img b s hs, tile_pix b s hs t] at e
  exact e

/-! ## The sums array -/

/-- Every entry of a tile's feature block is a real number when every feature is. -/
private theorem xblk_real (c : Dev nD)
    (hfin : ∀ i, ∃ r : ℝ, (m ((c : Thread nD τ).loc main_arg0) : FVec Ideal Feats .f32) i = (r : EReal))
    (n : ℕ) (h : n < cfg0.N) (j : S1x256x8192.Idx) : ∃ r : ℝ, (xblk m c n h) j = (r : EReal) := by
  obtain ⟨a, ch, t, rfl⟩ : ∃ (a : Fin 1) (ch : Fin 256) (t : Fin 8192), j = ix3 a ch t := ⟨j 0, j 1, j 2, eq_ix3 j⟩
  obtain rfl : a = 0 := Subsingleton.elim _ _
  obtain ⟨r, hr⟩ := hfin (ix4 ⟨n / 4, by have := lt_of_lt_of_eq h (show cfg0.N = 32 from N_0); omega⟩ ch
    (pixRow ⟨8192 * (n % 4) + t.val, by have := t.isLt; omega⟩) (pixCol ⟨8192 * (n % 4) + t.val, by have := t.isLt; omega⟩))
  exact ⟨r, (HostIn.xblk_apply m c n h ch t).trans hr⟩

/-- The addend of the tile at point n to the sums accumulator: at (c, k), the sum of channel c over the tile's pixels
    labelled k.  (Zero for a number that is no point of the grid.) -/
private def sumsAdd (c : Dev nD) (n : ℕ) (i : S256x128.Idx) : EReal :=
  if h : n < cfg0.N then
    ∑ t : Fin 8192, if ((sblk m c n h) (ix3 (0 : Fin 1) (0 : Fin 1) t) : BitVec 32).toInt = ((i 1).val : ℤ)
      then (xblk m c n h) (ix3 (0 : Fin 1) (⟨(i 0).val, (i 0).isLt⟩ : Fin 256) t) else 0
  else 0

/-- Entry (b, c, k) of the first output array: the sum of channel c over the pixels of image b labelled k. -/
theorem sumsArr_apply (c : Dev nD)
    (hfin : ∀ i, ∃ r : ℝ, (m ((c : Thread nD τ).loc main_arg0) : FVec Ideal Feats .f32) i = (r : EReal))
    (b : Fin 8) (ch : Fin 256) (k : Fin 128) :
    (sumsArr m c : S8x256x128.Idx → EReal) (ix3 b ch k)
      = ∑ q : Fin 32768, if (label (m ((c : Thread nD τ).loc main_arg1)) b q).toInt = (k.val : ℤ)
          then feat (m ((c : Thread nD τ).loc main_arg0)) b ch q else 0 := by
  have hN : cfg0.N = 32 := N_0
  have hb : b.val < 8 := b.isLt
  have h3 : 4 * b.val + 3 < cfg0.N := last_lt _ hb
  -- the image's first tile resets the accumulator to zero and adds its addend
  have ha : ∀ (h : 4 * b.val < cfg0.N) (i : S256x128.Idx),
      sumsReset m c (4 * b.val) h i = (0 : EReal) + sumsAdd m c (4 * b.val) i := by
    intro h i
    obtain ⟨cc, kk, rfl⟩ : ∃ (cc : Fin 256) (kk : Fin 128), i = ix2 cc kk := ⟨i 0, i 1, eq_ix2 i⟩
    unfold sumsReset sumsAdd
    rw [dif_pos h, TileValue.pay10_apply _ _ _ (xblk_real m c hfin _ h) cc kk, TileValue.pay4_apply]
  -- each later tile adds its addend to what the tile before left
  have hg : ∀ (n : ℕ) (h : n < cfg0.N) (acc : S256x128.Idx → EReal) (i : S256x128.Idx), 4 * b.val < n → n ≤ 4 * b.val + 3 →
      sumsStep m c n h acc i = acc i + sumsAdd m c n i := by
    intro n h acc i _ _
    obtain ⟨cc, kk, rfl⟩ : ∃ (cc : Fin 256) (kk : Fin 128), i = ix2 cc kk := ⟨i 0, i 1, eq_ix2 i⟩
    unfold sumsStep sumsAdd
    rw [dif_pos h, TileValue.pay10_apply _ _ _ (xblk_real m c hfin _ h) cc kk]
  have hfold := Pipeline.accAt_add_apply (sumsReset m c) (sumsStep m c) (fun _ => (0 : EReal)) (sumsAdd m c) (4 * b.val) 3
    ha hg 3 le_rfl h3 (ix2 ch k)
  -- the entry is the image's finished accumulator, the fold over its four tiles
  have hf : (outsAt0 m c (4 * b.val + 3) h3).2.2.1
      = Pipeline.accAt (sumsReset m c) (sumsStep m c) (4 * b.val) 3 h3 :=
    (sums_fold m c ⟨4 * b.val + 3, h3⟩).trans (accAt_congr _ _ _ _ _ _ _ _
      (by show 4 * ((4 * b.val + 3) / 4) = 4 * b.val; omega) (by show (4 * b.val + 3) % 4 = 3; omega))
  unfold sumsArr
  show k0_pay2 ((outsAt0 m c (4 * b.val + 3) h3).2.2.1) (ix3 (0 : Fin 1) ch k) = _
  rw [TileValue.pay2_apply, hf, hfold]
  show (0 : EReal) + ∑ s ∈ Finset.range 4, sumsAdd m c (4 * b.val + s) (ix2 ch k) = _
  rw [zero_add]
  -- the four addends are the sums over the four tiles of the image's pixels
  refine sum_tiles (fun q => if (label (m ((c : Thread nD τ).loc main_arg1)) b q).toInt = (k.val : ℤ)
    then feat (m ((c : Thread nD τ).loc main_arg0)) b ch q else 0) _ (fun s hs => ?_)
  have hn : 4 * b.val + s < cfg0.N := by rw [hN]; omega
  unfold sumsAdd
  rw [dif_pos hn]
  refine Finset.sum_congr rfl fun t _ => ?_
  show (if ((sblk m c (4 * b.val + s) hn) (ix3 (0 : Fin 1) (0 : Fin 1) t) : BitVec 32).toInt = (k.val : ℤ)
      then (xblk m c (4 * b.val + s) hn) (ix3 (0 : Fin 1) ch t) else 0) = _
  rw [sblk_tile m c b s hs hn t, xblk_tile m c b s hs hn ch t]

/-! ## The statistics array -/

/-- The addend of the tile at point n to the statistics accumulator: the tile's statistics.  (Zero for a number that
    is no point of the grid.) -/
private def statsAdd (c : Dev nD) (n : ℕ) (i : S8x128.Idx) : EReal :=
  if h : n < cfg0.N then k0_pay9 (F := Ideal) (xblk m c n h) (sblk m c n h) i else 0

/-- Entry (b, r, k) of the second output array is the sum of the statistics of image b's four tiles at (r, k). -/
private theorem statsArr_tiles (c : Dev nD) (b : Fin 8) (r : Fin 8) (k : Fin 128) :
    (statsArr m c : S8x8x128.Idx → EReal) (ix3 b r k) = ∑ s ∈ Finset.range 4, statsAdd m c (4 * b.val + s) (ix2 r k) := by
  have hb : b.val < 8 := b.isLt
  have h3 : 4 * b.val + 3 < cfg0.N := last_lt _ hb
  -- the image's first tile resets the accumulator to zero and adds its statistics
  have ha : ∀ (h : 4 * b.val < cfg0.N) (i : S8x128.Idx),
      statsReset m c (4 * b.val) h i = (0 : EReal) + statsAdd m c (4 * b.val) i := by
    intro h i
    unfold statsReset statsAdd
    rw [dif_pos h, TileValue.pay1_apply, TileValue.pay5_apply]
  -- each later tile adds its statistics to what the tile before left
  have hg : ∀ (n : ℕ) (h : n < cfg0.N) (acc : S8x128.Idx → EReal) (i : S8x128.Idx), 4 * b.val < n → n ≤ 4 * b.val + 3 →
      statsStep m c n h acc i = acc i + statsAdd m c n i := by
    intro n h acc i _ _
    unfold statsStep statsAdd
    rw [dif_pos h, TileValue.pay1_apply]
  have hfold := Pipeline.accAt_add_apply (statsReset m c) (statsStep m c) (fun _ => (0 : EReal)) (statsAdd m c) (4 * b.val) 3
    ha hg 3 le_rfl h3 (ix2 r k)
  have hf : (outsAt0 m c (4 * b.val + 3) h3).2.2.2
      = Pipeline.accAt (statsReset m c) (statsStep m c) (4 * b.val) 3 h3 :=
    (stats_fold m c ⟨4 * b.val + 3, h3⟩).trans (accAt_congr _ _ _ _ _ _ _ _
      (by show 4 * ((4 * b.val + 3) / 4) = 4 * b.val; omega) (by show (4 * b.val + 3) % 4 = 3; omega))
  unfold statsArr
  show k0_pay3 ((outsAt0 m c (4 * b.val + 3) h3).2.2.2) (ix3 (0 : Fin 1) r k) = _
  rw [TileValue.pay3_apply, hf, hfold]
  show (0 : EReal) + ∑ s ∈ Finset.range 4, statsAdd m c (4 * b.val + s) (ix2 r k) = _
  rw [zero_add]

/-- Row 0 of the second output array at (b, k): the sum of the pixel norms over the pixels of image b labelled k. -/
theorem statsArr_norm_apply (c : Dev nD) (b : Fin 8) (k : Fin 128) :
    (statsArr m c : S8x8x128.Idx → EReal) (ix3 b (0 : Fin 8) k)
      = ∑ q : Fin 32768, if (label (m ((c : Thread nD τ).loc main_arg1)) b q).toInt = (k.val : ℤ)
          then pixNorm (m ((c : Thread nD τ).loc main_arg0)) b q else 0 := by
  have hN : cfg0.N = 32 := N_0
  have hb : b.val < 8 := b.isLt
  rw [statsArr_tiles m c b (0 : Fin 8) k]
  refine sum_tiles (fun q => if (label (m ((c : Thread nD τ).loc main_arg1)) b q).toInt = (k.val : ℤ)
    then pixNorm (m ((c : Thread nD τ).loc main_arg0)) b q else 0) _ (fun s hs => ?_)
  have hn : 4 * b.val + s < cfg0.N := by rw [hN]; omega
  unfold statsAdd
  rw [dif_pos hn, TileValue.pay9_norm_apply]
  refine Finset.sum_congr rfl fun t _ => ?_
  rw [sblk_tile m c b s hs hn t]
  unfold pixNorm
  -- a pixel's norm: the channel vector read through the tile's block
  exact if_congr Iff.rfl (congrArg Ideal.sqrt (Finset.sum_congr rfl fun cc _ => by rw [xblk_tile m c b s hs hn cc t])) rfl

/-- Row 1 of the second output array at (b, k): the number of pixels of image b labelled k. -/
theorem statsArr_count_apply (c : Dev nD) (b : Fin 8) (k : Fin 128) :
    (statsArr m c : S8x8x128.Idx → EReal) (ix3 b (1 : Fin 8) k)
      = ∑ q : Fin 32768, if (label (m ((c : Thread nD τ).loc main_arg1)) b q).toInt = (k.val : ℤ)
          then (1 : EReal) else 0 := by
  have hN : cfg0.N = 32 := N_0
  have hb : b.val < 8 := b.isLt
  rw [statsArr_tiles m c b (1 : Fin 8) k]
  refine sum_tiles (fun q => if (label (m ((c : Thread nD τ).loc main_arg1)) b q).toInt = (k.val : ℤ)
    then (1 : EReal) else 0) _ (fun s hs => ?_)
  have hn : 4 * b.val + s < cfg0.N := by rw [hN]; omega
  unfold statsAdd
  rw [dif_pos hn, TileValue.pay9_count_apply]
  refine Finset.sum_congr rfl fun t _ => ?_
  rw [sblk_tile m c b s hs hn t]

end Cert.KernelIdeal.KernelValue

end
-- ==== Proof.KernelClass.lean ====
/-
  The kernel's three per-class arrays are the specification's.

  Adding the eight images' blocks of the first output array at (c, k) adds, image by image, the sum of channel c over
  the image's pixels labelled k: the sum over all pixels labelled k, which is the specification's class sum; the two
  statistics rows give the class norm sums and the class counts in the same way.
-/
import proofs.«426171_j42460046688734_3_alg».proof.Proof.KernelValue
import proofs.«426171_j42460046688734_3_alg».proof.Proof.HostOut
import proofs.«426171_j42460046688734_3_alg».proof.Proof.Spec
import Idealize.ShloMosaic.Lib.ValueIdx

set_option maxRecDepth 16384

noncomputable section

namespace Cert.KernelIdeal.KernelClass

open Cert.KernelIdeal Cert.KernelIdeal.Gen Cert.KernelIdeal.Arrays Cert.KernelIdeal.HostOut Cert.KernelIdeal.KernelValue Cert.SegMean
open Idealize.ShloMosaic Idealize.ShloMosaic.TcCoe Idealize.ShloMosaic.ValueIdx Idealize.SL.Sem

variable (m : (ℓ : Loc nD τ sig) → Buf (Elt Ideal) ℓ)

/-- The kernel's class-by-channel sums are the specification's. -/
theorem sums_class (c : Dev nD)
    (hfin : ∀ i, ∃ r : ℝ, (m ((c : Thread nD τ).loc main_arg0) : FVec Ideal Feats .f32) i = (r : EReal)) :
    sumsOf (sumsArr m c) = classSum (m ((c : Thread nD τ).loc main_arg0)) (m ((c : Thread nD τ).loc main_arg1)) := by
  funext i
  obtain ⟨k, ch, rfl⟩ : ∃ (k : Fin 19) (ch : Fin 256), i = ix2 k ch := ⟨i 0, i 1, eq_ix2 i⟩
  -- entry (k, ch) of the kernel's sums: the images' blocks added at (ch, k)
  refine (sumsOf_apply _ k ch).trans ?_
  unfold classSum
  -- image by image, the block's entry is the sum of the channel over the image's pixels labelled k
  refine Finset.sum_congr rfl fun b _ => ?_
  exact sumsArr_apply m c hfin b ch ⟨k.val, by have := k.isLt; omega⟩

/-- The kernel's class norm sums are the specification's. -/
theorem norms_class (c : Dev nD) :
    normsOf (statsArr m c) = classNormSum (m ((c : Thread nD τ).loc main_arg0)) (m ((c : Thread nD τ).loc main_arg1)) := by
  funext i
  obtain ⟨k, rfl⟩ : ∃ k : Fin 19, i = ix1 k := ⟨i 0, eq_ix1 i⟩
  -- entry k of the kernel's norm sums: the images' statistics rows 0 added at k
  refine (normsOf_apply _ k).trans ?_
  unfold classNormSum
  refine Finset.sum_congr rfl fun b _ => ?_
  exact statsArr_norm_apply m c b ⟨k.val, by have := k.isLt; omega⟩

/-- The kernel's class counts are the specification's. -/
theorem counts_class (c : Dev nD) :
    countsOf (statsArr m c) = classCount (m ((c : Thread nD τ).loc main_arg1)) := by
  funext i
  obtain ⟨k, rfl⟩ : ∃ k : Fin 19, i = ix1 k := ⟨i 0, eq_ix1 i⟩
  -- entry k of the kernel's counts: the images' statistics rows 1 added at k
  refine (countsOf_apply _ k).trans ?_
  unfold classCount
  refine Finset.sum_congr rfl fun b _ => ?_
  exact statsArr_count_apply m c b ⟨k.val, by have := k.isLt; omega⟩

end Cert.KernelIdeal.KernelClass

end
-- ==== Proof.RefValue.lean ====
/-
  The reference computes the three class statistics of the specification.

  The reference flattens the feature array to one row per pixel, n = 32768 b + q, with the channels along the row,
  and the labels to one word per pixel, and adds row n (or the number 1, or the row's Euclidean norm) into the slot
  its label names, dropping a row whose label, read as a signed integer, names no slot.  So slot (k, c) of its first
  scatter is the sum of channel c over the pixels labelled k, and likewise for the count and the norm sum; its two
  results are the shared tails of those.

  The proof has four parts.  (1) For each of the two scatters' dimension numbers, where update element j lands: the
  start index is the label word of j's row read as a signed integer, the window coordinate is j's column (feature
  scatter) or nothing (the two rank-1 scatters); so j lands on slot (k, c) exactly when its row's label is k and its
  column is c.  (2) Hence a slot of an accumulating scatter into zeros is the sum, over the rows n whose label is k,
  of the update at row n.  (3) Row n = 32768 b + q of the flattened features is pixel q of image b (the transposition
  puts the channel last, the reshapes are row-major), and the same for the labels and the row norms.  (4) The sum
  over the 262144 rows is the double sum over the 8 images and the 32768 pixels of an image.
-/
import proofs.«426171_j42460046688734_3_alg».proof.Proof.RefRead
import proofs.«426171_j42460046688734_3_alg».proof.Proof.Spec
import Idealize.ShloMosaic.Lib.IdealHost
import Idealize.ShloMosaic.Lib.ValueIdxRank1
import Mathlib.Data.Fintype.BigOperators
import Mathlib.Logic.Equiv.Fin.Basic

noncomputable section

namespace Cert.ReferenceIdeal.RefValue

open Cert.ReferenceIdeal Cert.ReferenceIdeal.Gen Cert.ReferenceIdeal.ReadP Cert.SegMean
open Idealize.ShloMosaic Idealize.ShloMosaic.TcCoe Idealize.ShloMosaic.ValueIdx
open scoped BigOperators

/-! ## Where an update lands -/

/-- The dimension numbers of the feature scatter: slots [19, 256], one start index per row, updates [262144, 256];
    the update's column is the window axis and goes to the slot's column. -/
private abbrev dF : ScatterDims S19x256 S262144x1 S262144x256 := scatter_S19x256_S262144x1_S262144x256_1_0_0_1
/-- The dimension numbers of the two rank-1 scatters: slots [19], one start index per row, updates [262144], no window. -/
private abbrev dC : ScatterDims S19 S262144x1 S262144 := scatter_S19_S262144x1_S262144_n_0_0_1

/-- On the slot axis, update (n, c') of the feature scatter starts at the label word of row n, read signed. -/
private theorem dF_start0 (idx : IVec S262144x1 32) (n : Fin 262144) (c' : Fin 256) :
    dF.start (ix2 n c') idx 0 = (idx (ix2 n 0)).toInt := by
  unfold ScatterDims.start
  rw [dif_pos (show (0 : Fin 2) ∈ dF.scatterDimsToOperandDims from List.mem_singleton.mpr rfl)]
  refine congrArg (fun t => (idx t).toInt) ?_
  funext b; refine Fin.ext ?_
  match b with
  | ⟨0, _⟩ => rfl
  | ⟨1, _⟩ => rfl

/-- On the column axis the start is 0: the start index names the slot only. -/
private theorem dF_start1 (idx : IVec S262144x1 32) (j : S262144x256.Idx) : dF.start j idx 1 = 0 := by
  unfold ScatterDims.start
  rw [dif_neg (by decide)]

/-- The slot axis is an inserted one: no window coordinate on it. -/
private theorem dF_window0 (j : S262144x256.Idx) : dF.window j 0 = 0 := by
  unfold ScatterDims.window
  rw [dif_neg (by decide)]

/-- On the column axis the window coordinate of update (n, c') is c'. -/
private theorem dF_window1 (n : Fin 262144) (c' : Fin 256) : dF.window (ix2 n c') 1 = c'.val := by
  unfold ScatterDims.window
  rw [dif_pos (by decide)]
  rfl

/-- Update (n, c') of the feature scatter lands on slot (k, c) exactly when the label of row n, read signed, is k
    and c' = c; a label that is no slot lands nowhere. -/
private theorem dF_resultIdx (idx : IVec S262144x1 32) (n : Fin 262144) (c' : Fin 256) (k : Fin 19) (c : Fin 256) :
    dF.resultIdx? (ix2 n c') idx = some (ix2 k c) ↔ ((idx (ix2 n 0)).toInt = (k.val : ℤ) ∧ c' = c) := by
  unfold ScatterDims.resultIdx?
  constructor
  · intro h
    by_cases hc : ∀ a, 0 ≤ dF.start (ix2 n c') idx a + dF.window (ix2 n c') a ∧
        dF.start (ix2 n c') idx a + dF.window (ix2 n c') a < S19x256.size a
    · rw [dif_pos hc] at h
      have h' := Option.some.inj h
      have e0 : (dF.start (ix2 n c') idx 0 + (dF.window (ix2 n c') 0 : ℤ)).toNat = k.val :=
        congrArg Fin.val (congrFun h' 0)
      have e1 : (dF.start (ix2 n c') idx 1 + (dF.window (ix2 n c') 1 : ℤ)).toNat = c.val :=
        congrArg Fin.val (congrFun h' 1)
      have b0 := (hc 0).1
      rw [dF_start0, dF_window0] at e0 b0
      rw [dF_start1, dF_window1] at e1
      refine ⟨by omega, Fin.ext (by omega)⟩
    · rw [dif_neg hc] at h
      cases h
  · rintro ⟨hk, rfl⟩
    have hc : ∀ a, 0 ≤ dF.start (ix2 n c') idx a + dF.window (ix2 n c') a ∧
        dF.start (ix2 n c') idx a + dF.window (ix2 n c') a < S19x256.size a := by
      intro a
      match a with
      | ⟨0, _⟩ =>
        show 0 ≤ dF.start (ix2 n c') idx 0 + (dF.window (ix2 n c') 0 : ℤ) ∧
          dF.start (ix2 n c') idx 0 + (dF.window (ix2 n c') 0 : ℤ) < ((19 : ℕ) : ℤ)
        rw [dF_start0, dF_window0, hk]
        have := k.isLt
        omega
      | ⟨1, _⟩ =>
        show 0 ≤ dF.start (ix2 n c') idx 1 + (dF.window (ix2 n c') 1 : ℤ) ∧
          dF.start (ix2 n c') idx 1 + (dF.window (ix2 n c') 1 : ℤ) < ((256 : ℕ) : ℤ)
        rw [dF_start1, dF_window1]
        have := c'.isLt
        omega
    rw [dif_pos hc]
    refine congrArg some ?_
    funext a; refine Fin.ext ?_
    match a with
    | ⟨0, _⟩ =>
      show (dF.start (ix2 n c') idx 0 + (dF.window (ix2 n c') 0 : ℤ)).toNat = k.val
      rw [dF_start0, dF_window0, hk]
      omega
    | ⟨1, _⟩ =>
      show (dF.start (ix2 n c') idx 1 + (dF.window (ix2 n c') 1 : ℤ)).toNat = c'.val
      rw [dF_start1, dF_window1]
      omega

/-- Update n of a rank-1 scatter starts at the label word of row n, read signed. -/
private theorem dC_start0 (idx : IVec S262144x1 32) (n : Fin 262144) :
    dC.start (ix1 n) idx 0 = (idx (ix2 n 0)).toInt := by
  unfold ScatterDims.start
  rw [dif_pos (show (0 : Fin 1) ∈ dC.scatterDimsToOperandDims from List.mem_singleton.mpr rfl)]
  refine congrArg (fun t => (idx t).toInt) ?_
  funext b; refine Fin.ext ?_
  match b with
  | ⟨0, _⟩ => rfl
  | ⟨1, _⟩ => rfl

/-- A rank-1 scatter has no window. -/
private theorem dC_window0 (j : S262144.Idx) : dC.window j 0 = 0 := by
  unfold ScatterDims.window
  rw [dif_neg (by decide)]

/-- Update n of a rank-1 scatter lands on slot k exactly when the label of row n, read signed, is k. -/
private theorem dC_resultIdx (idx : IVec S262144x1 32) (n : Fin 262144) (k : Fin 19) :
    dC.resultIdx? (ix1 n) idx = some (ix1 k) ↔ (idx (ix2 n 0)).toInt = (k.val : ℤ) := by
  unfold ScatterDims.resultIdx?
  constructor
  · intro h
    by_cases hc : ∀ a, 0 ≤ dC.start (ix1 n) idx a + dC.window (ix1 n) a ∧
        dC.start (ix1 n) idx a + dC.window (ix1 n) a < S19.size a
    · rw [dif_pos hc] at h
      have h' := Option.some.inj h
      have e0 : (dC.start (ix1 n) idx 0 + (dC.window (ix1 n) 0 : ℤ)).toNat = k.val :=
        congrArg Fin.val (congrFun h' 0)
      have b0 := (hc 0).1
      rw [dC_start0, dC_window0] at e0 b0
      omega
    · rw [dif_neg hc] at h
      cases h
  · intro hk
    have hc : ∀ a, 0 ≤ dC.start (ix1 n) idx a + dC.window (ix1 n) a ∧
        dC.start (ix1 n) idx a + dC.window (ix1 n) a < S19.size a := by
      intro a
      match a with
      | ⟨0, _⟩ =>
        show 0 ≤ dC.start (ix1 n) idx 0 + (dC.window (ix1 n) 0 : ℤ) ∧
          dC.start (ix1 n) idx 0 + (dC.window (ix1 n) 0 : ℤ) < ((19 : ℕ) : ℤ)
        rw [dC_start0, dC_window0, hk]
        have := k.isLt
        omega
    rw [dif_pos hc]
    refine congrArg some ?_
    funext a; refine Fin.ext ?_
    match a with
    | ⟨0, _⟩ =>
      show (dC.start (ix1 n) idx 0 + (dC.window (ix1 n) 0 : ℤ)).toNat = k.val
      rw [dC_start0, dC_window0, hk]
      omega

/-! ## A slot of an accumulating scatter as a sum over the rows -/

/-- A sum over a rank-1 index set is the sum over its coordinate. -/
private theorem sum_idx1 {n : Nat} (f : (⟨1, ![n]⟩ : Shape).Idx → EReal) : ∑ i, f i = ∑ a : Fin n, f (ix1 a) := by
  rw [← Equiv.sum_comp (idxEquiv1 (n := n)).symm f]
  rfl

/-- The feature scatter at slot (k, c): the operand's element plus the sum, over the rows whose label is k, of the
    row's element in column c. -/
private theorem scatterF_apply (x0 : FVec Ideal S19x256 .f32) (idx : IVec S262144x1 32)
    (upd : FVec Ideal S262144x256 .f32) (k : Fin 19) (c : Fin 256) :
    Ideal.hostScatterAdd dF x0 idx upd (ix2 k c)
      = x0 (ix2 k c) + ∑ n : Fin 262144, if (idx (ix2 n 0)).toInt = (k.val : ℤ) then upd (ix2 n c) else 0 := by
  unfold Ideal.hostScatterAdd
  refine congrArg (x0 (ix2 k c) + ·) ?_
  rw [Finset.sum_filter, sum_idx2]
  refine Finset.sum_congr rfl fun n _ => ?_
  simp only [dF_resultIdx]
  by_cases hk : (idx (ix2 n 0)).toInt = (k.val : ℤ)
  · simp only [hk, true_and, if_true]
    rw [Finset.sum_ite_eq']
    simp only [Finset.mem_univ, if_true]
  · simp only [hk, false_and, if_false, Finset.sum_const_zero]

/-- A rank-1 scatter at slot k: the operand's element plus the sum of the updates of the rows whose label is k. -/
private theorem scatterC_apply (x0 : FVec Ideal S19 .f32) (idx : IVec S262144x1 32) (upd : FVec Ideal S262144 .f32)
    (k : Fin 19) :
    Ideal.hostScatterAdd dC x0 idx upd (ix1 k)
      = x0 (ix1 k) + ∑ n : Fin 262144, if (idx (ix2 n 0)).toInt = (k.val : ℤ) then upd (ix1 n) else 0 := by
  unfold Ideal.hostScatterAdd
  refine congrArg (x0 (ix1 k) + ·) ?_
  rw [Finset.sum_filter, sum_idx1]
  refine Finset.sum_congr rfl fun n _ => ?_
  simp only [dC_resultIdx]

/-- At the extended reals the feature scatter is the exact sum, whatever its operands. -/
private theorem scatterF_ideal (a : FVec Ideal S19x256 .f32) (b : IVec S262144x1 32) (c : FVec Ideal S262144x256 .f32) :
    Host.scatterAdd (F := Ideal) dF a b c = Ideal.hostScatterAdd dF a b c := rfl

/-- At the extended reals a rank-1 scatter is the exact sum, whatever its operands. -/
private theorem scatterC_ideal (a : FVec Ideal S19 .f32) (b : IVec S262144x1 32) (c : FVec Ideal S262144 .f32) :
    Host.scatterAdd (F := Ideal) dC a b c = Ideal.hostScatterAdd dC a b c := rfl

/-- The three scatters' start indices are one array: the labels, one word per row. -/
private theorem v8_eq (y : (⟨S8x128x256, .i32⟩ : BufTy).Contents (Elt Ideal)) :
    val_main_v8 (F := Ideal) y = val_main_v4 (F := Ideal) y := rfl
private theorem v21_eq (y : (⟨S8x128x256, .i32⟩ : BufTy).Contents (Elt Ideal)) :
    val_main_v21 (F := Ideal) y = val_main_v4 (F := Ideal) y := rfl

/-- The first scatter as the exact sum over zeros, the labels and the flattened features. -/
private theorem v5_eq (x : (⟨S8x256x128x256, .f32⟩ : BufTy).Contents (Elt Ideal)) (y : (⟨S8x128x256, .i32⟩ : BufTy).Contents (Elt Ideal)) :
    val_main_v5 (F := Ideal) x y
      = Ideal.hostScatterAdd dF (val_main_v3 (F := Ideal)) (val_main_v4 (F := Ideal) y) (val_main_v1 (F := Ideal) x) :=
  (show val_main_v5 (F := Ideal) x y = Host.scatterAdd (F := Ideal) (φ := .f32) dF (val_main_v3 (F := Ideal))
      (val_main_v4 (F := Ideal) y) (val_main_v1 (F := Ideal) x) from rfl).trans (scatterF_ideal _ _ _)

/-- The second scatter as the exact sum over zeros, the labels and ones. -/
private theorem v9_eq (y : (⟨S8x128x256, .i32⟩ : BufTy).Contents (Elt Ideal)) :
    val_main_v9 (F := Ideal) y
      = Ideal.hostScatterAdd dC (val_main_v7 (F := Ideal)) (val_main_v4 (F := Ideal) y) (val_main_v6 (F := Ideal)) :=
  (show val_main_v9 (F := Ideal) y = Host.scatterAdd (F := Ideal) (φ := .f32) dC (val_main_v7 (F := Ideal))
      (val_main_v8 (F := Ideal) y) (val_main_v6 (F := Ideal)) from rfl).trans
    ((scatterC_ideal _ _ _).trans (congrArg (fun t => Ideal.hostScatterAdd dC (val_main_v7 (F := Ideal)) t
      (val_main_v6 (F := Ideal))) (v8_eq y)))

/-- The third scatter as the exact sum over zeros, the labels and the row norms. -/
private theorem v22_eq (x : (⟨S8x256x128x256, .f32⟩ : BufTy).Contents (Elt Ideal)) (y : (⟨S8x128x256, .i32⟩ : BufTy).Contents (Elt Ideal)) :
    val_main_v22 (F := Ideal) x y
      = Ideal.hostScatterAdd dC (val_main_v20 (F := Ideal)) (val_main_v4 (F := Ideal) y) (val_main_v19 (F := Ideal) x) :=
  (show val_main_v22 (F := Ideal) x y = Host.scatterAdd (F := Ideal) (φ := .f32) dC (val_main_v20 (F := Ideal))
      (val_main_v21 (F := Ideal) y) (val_main_v19 (F := Ideal) x) from rfl).trans
    ((scatterC_ideal _ _ _).trans (congrArg (fun t => Ideal.hostScatterAdd dC (val_main_v20 (F := Ideal)) t
      (val_main_v19 (F := Ideal) x)) (v21_eq y)))

/-! ## The rows are the pixels -/

/-- The row of pixel q of image b in the flattened arrays: n = 32768 b + q. -/
private def row (b : Fin 8) (q : Fin 32768) : Fin 262144 :=
  ⟨32768 * b.val + q.val, by have := b.isLt; have := q.isLt; omega⟩

/-- A sum over the rows is the double sum over the image and the pixel. -/
private theorem sum_rows (g : Fin 262144 → EReal) :
    ∑ n : Fin 262144, g n = ∑ b : Fin 8, ∑ q : Fin 32768, g (row b q) := by
  have h := Equiv.sum_comp (finProdFinEquiv (m := 8) (n := 32768)) g
  rw [Fintype.sum_prod_type] at h
  refine h.symm.trans ?_
  refine Finset.sum_congr rfl fun b _ => Finset.sum_congr rfl fun q _ => ?_
  refine congrArg g (Fin.ext ?_)
  show q.val + 32768 * b.val = 32768 * b.val + q.val
  omega

/-- The label word of row 32768 b + q is the label of pixel q of image b: the labels are flattened row-major. -/
private theorem label_read (y : (⟨S8x128x256, .i32⟩ : BufTy).Contents (Elt Ideal)) (b : Fin 8) (q : Fin 32768) :
    val_main_v4 (F := Ideal) y (ix2 (row b q) 0) = label y b q := by
  rw [val_main_v4_apply, val_main_v2_apply]
  unfold label
  refine congrArg y (funext fun a => Fin.ext ?_)
  have hb := b.isLt
  have hq := q.isLt
  match a with
  | ⟨0, _⟩ => show (32768 * b.val + q.val) / 32768 = b.val; omega
  | ⟨1, _⟩ => show (32768 * b.val + q.val) / 256 % 128 = q.val / 256; omega
  | ⟨2, _⟩ => show (32768 * b.val + q.val) % 256 = q.val % 256; omega

/-- Column c of row 32768 b + q of the flattened features is channel c of pixel q of image b: the transposition
    moves the channel axis last and the reshape is row-major. -/
private theorem feat_read (x : (⟨S8x256x128x256, .f32⟩ : BufTy).Contents (Elt Ideal)) (b : Fin 8) (q : Fin 32768)
    (c : Fin 256) : val_main_v1 (F := Ideal) x (ix2 (row b q) c) = feat x b c q := by
  rw [val_main_v1_apply, val_main_v0_apply]
  unfold feat
  refine congrArg x (funext fun a => Fin.ext ?_)
  have hb := b.isLt
  have hq := q.isLt
  have hc := c.isLt
  match a with
  | ⟨0, _⟩ => show ((32768 * b.val + q.val) * 256 + c.val) / 8388608 = b.val; omega
  | ⟨1, _⟩ => show ((32768 * b.val + q.val) * 256 + c.val) % 256 = c.val; omega
  | ⟨2, _⟩ => show ((32768 * b.val + q.val) * 256 + c.val) / 65536 % 128 = q.val / 256; omega
  | ⟨3, _⟩ => show ((32768 * b.val + q.val) * 256 + c.val) / 256 % 256 = q.val % 256; omega

/-- The norm the reference computes for row 32768 b + q, the square root of zero plus the sum of the squares along
    the row, is the Euclidean norm of pixel q of image b. -/
private theorem norm_read (x : (⟨S8x256x128x256, .f32⟩ : BufTy).Contents (Elt Ideal)) (b : Fin 8) (q : Fin 32768) :
    val_main_v19 (F := Ideal) x (ix1 (row b q)) = pixNorm x b q := by
  rw [val_main_v19_apply, Ideal.hostUnary_sqrt_def, val_main_call1_v1_apply, val_main_call1_cst_apply, Ideal.ofBits_def,
    Ideal.ofBits_zero_f32, zero_add]
  unfold pixNorm
  refine congrArg Ideal.sqrt (Finset.sum_congr rfl fun c _ => ?_)
  rw [val_main_call1_v0_apply]
  have h : idx_main_call1_v1 (ix1 (row b q)) c = ix2 (row b q) c := by
    funext a
    match a with
    | ⟨0, _⟩ => rfl
    | ⟨1, _⟩ => rfl
  rw [h, feat_read]
  rfl

/-! ## The three statistics -/

/-- Slot (k, c) of the feature scatter is the sum of channel c over the pixels labelled k. -/
theorem sums_eq (x : (⟨S8x256x128x256, .f32⟩ : BufTy).Contents (Elt Ideal)) (y : (⟨S8x128x256, .i32⟩ : BufTy).Contents (Elt Ideal)) :
    val_main_v5 (F := Ideal) x y = classSum x y := by
  rw [v5_eq]
  funext i
  obtain ⟨k, c, rfl⟩ : ∃ k c, i = ix2 k c := ⟨i 0, i 1, eq_ix2 i⟩
  rw [scatterF_apply, val_main_v3_apply, val_main_cst_apply, Ideal.ofBits_def, Ideal.ofBits_zero_f32, zero_add, sum_rows]
  unfold classSum
  refine Finset.sum_congr rfl fun b _ => Finset.sum_congr rfl fun q _ => ?_
  rw [label_read, feat_read]

/-- Slot k of the scatter of ones is the number of pixels labelled k. -/
theorem count_eq (y : (⟨S8x128x256, .i32⟩ : BufTy).Contents (Elt Ideal)) :
    val_main_v9 (F := Ideal) y = classCount y := by
  rw [v9_eq]
  funext i
  obtain ⟨k, rfl⟩ : ∃ k, i = ix1 k := ⟨i 0, eq_ix1 i⟩
  rw [scatterC_apply, val_main_v7_apply, val_main_cst_1_apply, Ideal.ofBits_def, Ideal.ofBits_zero_f32, zero_add, sum_rows]
  unfold classCount
  refine Finset.sum_congr rfl fun b _ => Finset.sum_congr rfl fun q _ => ?_
  rw [label_read, val_main_v6_apply, val_main_cst_0_apply, Ideal.ofBits_def, Ideal.ofBits_one_f32]

/-- Slot k of the scatter of row norms is the sum of the pixel norms over the pixels labelled k. -/
theorem normsum_eq (x : (⟨S8x256x128x256, .f32⟩ : BufTy).Contents (Elt Ideal)) (y : (⟨S8x128x256, .i32⟩ : BufTy).Contents (Elt Ideal)) :
    val_main_v22 (F := Ideal) x y = classNormSum x y := by
  rw [v22_eq]
  funext i
  obtain ⟨k, rfl⟩ : ∃ k, i = ix1 k := ⟨i 0, eq_ix1 i⟩
  rw [scatterC_apply, val_main_v20_apply, val_main_cst_5_apply, Ideal.ofBits_def, Ideal.ofBits_zero_f32, zero_add, sum_rows]
  unfold classNormSum
  refine Finset.sum_congr rfl fun b _ => Finset.sum_congr rfl fun q _ => ?_
  rw [label_read, norm_read]

/-- The reference's first result: the class means. -/
theorem means_eq (x : (⟨S8x256x128x256, .f32⟩ : BufTy).Contents (Elt Ideal)) (y : (⟨S8x128x256, .i32⟩ : BufTy).Contents (Elt Ideal)) :
    val_main_v18 (F := Ideal) x y = meansTail (classSum x y) (classCount y) := by
  rw [← sums_eq x y, ← count_eq y]
  rfl

/-- The reference's second result: the class mean norms. -/
theorem norms_eq (x : (⟨S8x256x128x256, .f32⟩ : BufTy).Contents (Elt Ideal)) (y : (⟨S8x128x256, .i32⟩ : BufTy).Contents (Elt Ideal)) :
    val_main_v24 (F := Ideal) x y = normTail (classNormSum x y) (classCount y) := by
  rw [← normsum_eq x y, ← count_eq y]
  rfl

end Cert.ReferenceIdeal.RefValue

end
-- ==== Proof.lean ====
/-
  The kernel computes, per class, the mean feature vector and the mean feature norm of the pixels carrying that
  class's label; the reference computes the same with three segment sums.  The certificate has five parts.

  Frames.  Each of the three programs runs to its end without a fault and leaves its arguments unchanged: for the
  kernel at the word level and for the idealized kernel this is their frame run; for the reference it is its run with
  the results dropped.

  The idealization.  The one rewrite of the ideal pass replaces, in the two-term split of the features, the feature
  block narrowed to bf16 and widened back by the block itself: over the extended reals narrowing and widening are the
  identity.

  The values.  Over the extended reals, under the precondition that every feature is a real number, both programs end
  with the same two arrays.  The kernel adds, image by image and pixel tile by pixel tile, a one-hot product that puts
  each pixel's channel vector, norm and a one into the column of its label; its low-order correction term is the
  product of (x - x) with the same one-hot table, which is zero because the features are real numbers; the per-image
  results are added over the images and cut to the 19 classes.  The reference scatters each pixel's row, norm and a one
  into the slot its label names and drops a label that names no slot; the kernel's columns from 19 on, and its labels
  outside 0..127, are dropped in the same way.  Both therefore hold the class sums, the class norm sums and the class
  counts of the specification (Spec.lean), and both finish with the same host operations on them: divide by
  max(count, 1) and write 0 where the count is not positive.
-/
import proofs.«426171_j42460046688734_3_alg».proof.Defs
import proofs.«426171_j42460046688734_3_alg».proof.Proof.Gen.Kernel
import proofs.«426171_j42460046688734_3_alg».proof.Proof.Gen.Kernel.Frame
import proofs.«426171_j42460046688734_3_alg».proof.Proof.Gen.KernelIdeal
import proofs.«426171_j42460046688734_3_alg».proof.Proof.Gen.KernelIdeal.Frame
import proofs.«426171_j42460046688734_3_alg».proof.Proof.Gen.ReferenceIdeal
import proofs.«426171_j42460046688734_3_alg».proof.Proof.Gen.Pre_finite_inputs
import proofs.«426171_j42460046688734_3_alg».proof.Proof.Spec
import proofs.«426171_j42460046688734_3_alg».proof.Proof.Finite
import proofs.«426171_j42460046688734_3_alg».proof.Proof.KernelRun
import proofs.«426171_j42460046688734_3_alg».proof.Proof.KernelClass
import proofs.«426171_j42460046688734_3_alg».proof.Proof.RefRun
import proofs.«426171_j42460046688734_3_alg».proof.Proof.RefRead
import proofs.«426171_j42460046688734_3_alg».proof.Proof.RefValue
import Idealize.ShloMosaic.Adequacy
import Idealize.ShloMosaic.Init

noncomputable section

namespace Cert.Proof

open Idealize.ShloMosaic Idealize.ShloMosaic.TcCoe Idealize.SL.Sem Cert.SegMean

/-- The word-level kernel runs and keeps its arguments. -/
theorem frame_kernel : Cert.frame_Kernel :=
  fun m ρ _ => Cert.Kernel.Gen.frame m ρ

/-- The idealized kernel runs and keeps its arguments. -/
theorem frame_kernelIdeal : Cert.frame_KernelIdeal :=
  fun m ρ _ => Cert.KernelIdeal.Gen.frame m ρ

/-- The reference runs and keeps its arguments: its run, the two results dropped. -/
theorem frame_reference : Cert.frame_ReferenceIdeal :=
  fun m ρ _ => (θ_run Cert.ReferenceIdeal.defs _ _).mono (fun _ h c => (h c).2.2)
    (Cert.ReferenceIdeal.ValueP.run (F := Ideal) m ρ)

/-- Narrowing the feature block to bf16 and widening it back is the identity over the extended reals, and the
    rounding through bf16 at the word level. -/
theorem preserves : Cert.preserves_Kernel_KernelIdeal :=
  IdealRules.truncf_extf.statement Cert.KernelIdeal.S256x8192 .f32 .bf16

/-- From memories that agree on the arguments, where every feature is finite, both idealized programs end with the
    class means and the class mean norms of the specification. -/
theorem algebraic : Cert.algebraic_KernelIdeal_ReferenceIdeal := by
  intro m ρ m' ρ' hpre hagree
  have hfin : ∀ (c : Dev Cert.KernelIdeal.nD) i, ∃ r : ℝ,
      (m ((c.tc : Thread Cert.KernelIdeal.nD Cert.KernelIdeal.τ).loc Cert.KernelIdeal.main_arg0) : FVec Ideal Feats .f32) i = (r : EReal) :=
    fun c i => Cert.SegMean.Finite.real_of_pre _ _ (hpre c) i
  refine ⟨fun c => meansTail
      (classSum (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (classCount (m ((c.tc : Thread Cert.KernelIdeal.nD Cert.KernelIdeal.τ).loc Cert.KernelIdeal.main_arg1))),
    fun c => normTail
      (classNormSum (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (classCount (m ((c.tc : Thread Cert.KernelIdeal.nD Cert.KernelIdeal.τ).loc Cert.KernelIdeal.main_arg1))), ?_, ?_⟩
  · refine (θ_run Cert.KernelIdeal.defs _ _).mono (fun r h c => ?_) (Cert.KernelIdeal.KernelRun.run m ρ)
    obtain ⟨h1, h2, h3, h4⟩ := h c
    refine ⟨h1.trans ?_, h2.trans ?_, h3, h4⟩
    · rw [Cert.KernelIdeal.KernelClass.sums_class m c (hfin c), Cert.KernelIdeal.KernelClass.counts_class m c]
    · rw [Cert.KernelIdeal.KernelClass.norms_class m c, Cert.KernelIdeal.KernelClass.counts_class m c]
  · refine (θ_run Cert.ReferenceIdeal.defs _ _).mono (fun r h c => ?_) (Cert.ReferenceIdeal.ValueP.run (F := Ideal) m' ρ')
    obtain ⟨h1, h2, h3, h4⟩ := h c
    refine ⟨?_, ?_, h3, h4⟩
    · rw [h1, Cert.ReferenceIdeal.ReadP.val_main_v18_eq, Cert.ReferenceIdeal.RefValue.means_eq, (hagree c).1, (hagree c).2]
    · rw [h2, Cert.ReferenceIdeal.ReadP.val_main_v24_eq, Cert.ReferenceIdeal.RefValue.norms_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
